-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x768x768 : Shape := ⟨3, ![8, 768, 768]⟩
abbrev S8x9x768x768 : Shape := ⟨4, ![8, 9, 768, 768]⟩
abbrev S_ : Shape := ⟨0, ![]⟩

class Facts : Prop where
  bcast_S_S8x9x768x768 : S_.BroadcastsInDim S8x9x768x768 (![] : Fin 0 → Fin S8x9x768x768.rank)
  reducesTo_S8x9x768x768_S_d0_1_2_3 : S8x9x768x768.ReducesTo [0, 1, 2, 3] S_
  h_S_ : 0 < S_.numel
  bcast_S_S8x768x768 : S_.BroadcastsInDim S8x768x768 (![] : Fin 0 → Fin S8x768x768.rank)
  reducesTo_S8x768x768_S_d0_1_2 : S8x768x768.ReducesTo [0, 1, 2] S_

variable [Facts]

def fn {F : FTy → Type} [FloatOps F] (main_arg0 : IVec S8x768x768 32) (main_arg1 : FVec F S8x9x768x768 .f32) : IVec S_ 1 :=
  let main_v0 : FVec F S8x9x768x768 .f32 := Host.absf main_arg1
  let main_cst : FVec F S_ .f32 := constant S_ .f32 0x7F800000#32
  let main_v1 : FVec F S8x9x768x768 .f32 := broadcastInDim S8x9x768x768 ![] bcast_S_S8x9x768x768 main_cst
  let main_v2 : IVec S8x9x768x768 1 := cmpf .olt main_v0 main_v1
  let main_c : IVec S_ 1 := constantI S_ 1 1#1
  let main_v3 : IVec S_ 1 := (fun x v => Host.reduce IntOp.andi x v reducesTo_S8x9x768x768_S_d0_1_2_3 h_S_) main_v2 main_c
  let main_c_0 : IVec S_ 32 := constantI S_ 32 0#32
  let main_v4 : IVec S8x768x768 32 := broadcastInDim S8x768x768 ![] bcast_S_S8x768x768 main_c_0
  let main_v5 : IVec S8x768x768 1 := cmpi .sge main_arg0 main_v4
  let main_c_1 : IVec S_ 32 := constantI S_ 32 9#32
  let main_v6 : IVec S8x768x768 32 := broadcastInDim S8x768x768 ![] bcast_S_S8x768x768 main_c_1
  let main_v7 : IVec S8x768x768 1 := cmpi .slt main_arg0 main_v6
  let main_v8 : IVec S8x768x768 1 := andi main_v5 main_v7
  let main_c_2 : IVec S_ 1 := constantI S_ 1 1#1
  let main_v9 : IVec S_ 1 := (fun x v => Host.reduce IntOp.andi x v reducesTo_S8x768x768_S_d0_1_2 h_S_) main_v8 main_c_2
  let main_v10 : IVec S_ 1 := andi main_v3 main_v9
  main_v10
-- ==== Kernel.lean ====
abbrev S8x768x768 : Shape := ⟨3, ![8, 768, 768]⟩
abbrev S8x9x768x768 : Shape := ⟨4, ![8, 9, 768, 768]⟩
abbrev S8x9x10 : Shape := ⟨3, ![8, 9, 10]⟩
abbrev S1x128x768 : Shape := ⟨3, ![1, 128, 768]⟩
abbrev S1x9x128x768 : Shape := ⟨4, ![1, 9, 128, 768]⟩
abbrev S1x9x10 : Shape := ⟨3, ![1, 9, 10]⟩
abbrev S128x768 : Shape := ⟨2, ![128, 768]⟩
abbrev S9x128x768 : Shape := ⟨3, ![9, 128, 768]⟩
abbrev S10x128x768 : Shape := ⟨3, ![10, 128, 768]⟩
abbrev S10x128 : Shape := ⟨2, ![10, 128]⟩
abbrev S10 : Shape := ⟨1, ![10]⟩
abbrev S1x10 : Shape := ⟨2, ![1, 10]⟩
abbrev S9x10 : Shape := ⟨2, ![9, 10]⟩
abbrev S8x9x9 : Shape := ⟨3, ![8, 9, 9]⟩
abbrev S8x9x1 : Shape := ⟨3, ![8, 9, 1]⟩
abbrev S8x9 : Shape := ⟨2, ![8, 9]⟩
abbrev S9x9 : Shape := ⟨2, ![9, 9]⟩
abbrev S_ : Shape := ⟨0, ![]⟩
abbrev S8x8x9 : Shape := ⟨3, ![8, 8, 9]⟩
abbrev S8x8 : Shape := ⟨2, ![8, 8]⟩
abbrev S8x8x1 : Shape := ⟨3, ![8, 8, 1]⟩
abbrev S1x8x9 : Shape := ⟨3, ![1, 8, 9]⟩

abbrev nBuf : Space → Nat
  | .hbm => 70
  | .vmem => 6
  | .smem => 0
  | _ => 0

abbrev bufTy : (tb : Table) → Fin (tcTables nBuf tb) → BufTy
  | .hbm, ⟨0, _⟩ => ⟨S8x768x768, .i32⟩
  | .hbm, ⟨1, _⟩ => ⟨S8x9x768x768, .f32⟩
  | .hbm, ⟨2, _⟩ => ⟨S8x9x10, .f32⟩
  | .hbm, ⟨3, _⟩ => ⟨S8x9x9, .f32⟩
  | .hbm, ⟨4, _⟩ => ⟨S8x9x1, .f32⟩
  | .hbm, ⟨5, _⟩ => ⟨S8x9, .f32⟩
  | .hbm, ⟨6, _⟩ => ⟨S9x9, .i32⟩
  | .hbm, ⟨7, _⟩ => ⟨S9x9, .i32⟩
  | .hbm, ⟨8, _⟩ => ⟨S_, .i32⟩
  | .hbm, ⟨9, _⟩ => ⟨S9x9, .i32⟩
  | .hbm, ⟨10, _⟩ => ⟨S9x9, .i32⟩
  | .hbm, ⟨11, _⟩ => ⟨S9x9, .i1⟩
  | .hbm, ⟨12, _⟩ => ⟨S9x9, .f32⟩
  | .hbm, ⟨13, _⟩ => ⟨S_, .f32⟩
  | .hbm, ⟨14, _⟩ => ⟨S9x9, .f32⟩
  | .hbm, ⟨15, _⟩ => ⟨S9x9, .f32⟩
  | .hbm, ⟨16, _⟩ => ⟨S_, .f32⟩
  | .hbm, ⟨17, _⟩ => ⟨S9x9, .f32⟩
  | .hbm, ⟨18, _⟩ => ⟨S9x9, .f32⟩
  | .hbm, ⟨19, _⟩ => ⟨S_, .f32⟩
  | .hbm, ⟨20, _⟩ => ⟨S9x9, .f32⟩
  | .hbm, ⟨21, _⟩ => ⟨S9x9, .f32⟩
  | .hbm, ⟨22, _⟩ => ⟨S9x9, .f32⟩
  | .hbm, ⟨23, _⟩ => ⟨S8x8x9, .f32⟩
  | .hbm, ⟨24, _⟩ => ⟨S8x8, .f32⟩
  | .hbm, ⟨25, _⟩ => ⟨S8x8x1, .f32⟩
  | .hbm, ⟨26, _⟩ => ⟨S_, .f32⟩
  | .hbm, ⟨27, _⟩ => ⟨S8x8x1, .f32⟩
  | .hbm, ⟨28, _⟩ => ⟨S8x8x1, .f32⟩
  | .hbm, ⟨29, _⟩ => ⟨S8x8x9, .f32⟩
  | .hbm, ⟨30, _⟩ => ⟨S8x8x9, .f32⟩
  | .hbm, ⟨31, _⟩ => ⟨S8x8, .f32⟩
  | .hbm, ⟨32, _⟩ => ⟨S_, .f32⟩
  | .hbm, ⟨33, _⟩ => ⟨S8x8, .f32⟩
  | .hbm, ⟨34, _⟩ => ⟨S8x8, .i1⟩
  | .hbm, ⟨35, _⟩ => ⟨S_, .f32⟩
  | .hbm, ⟨36, _⟩ => ⟨S8x8, .f32⟩
  | .hbm, ⟨37, _⟩ => ⟨S_, .f32⟩
  | .hbm, ⟨38, _⟩ => ⟨S8x8, .f32⟩
  | .hbm, ⟨39, _⟩ => ⟨S8x8, .f32⟩
  | .hbm, ⟨40, _⟩ => ⟨S8x8x1, .f32⟩
  | .hbm, ⟨41, _⟩ => ⟨S8x8x9, .f32⟩
  | .hbm, ⟨42, _⟩ => ⟨S8x8x9, .f32⟩
  | .hbm, ⟨43, _⟩ => ⟨S8x8x9, .f32⟩
  | .hbm, ⟨44, _⟩ => ⟨S_, .f32⟩
  | .hbm, ⟨45, _⟩ => ⟨S8x8, .f32⟩
  | .hbm, ⟨46, _⟩ => ⟨S8x8x1, .f32⟩
  | .hbm, ⟨47, _⟩ => ⟨S8x8x1, .f32⟩
  | .hbm, ⟨48, _⟩ => ⟨S8x8x9, .f32⟩
  | .hbm, ⟨49, _⟩ => ⟨S8x8x9, .f32⟩
  | .hbm, ⟨50, _⟩ => ⟨S8x9, .f32⟩
  | .hbm, ⟨51, _⟩ => ⟨S1x8x9, .f32⟩
  | .hbm, ⟨52, _⟩ => ⟨S8x8x9, .f32⟩
  | .hbm, ⟨53, _⟩ => ⟨S8x8x9, .f32⟩
  | .hbm, ⟨54, _⟩ => ⟨S_, .f32⟩
  | .hbm, ⟨55, _⟩ => ⟨S8x8, .f32⟩
  | .hbm, ⟨56, _⟩ => ⟨S8x8, .f32⟩
  | .hbm, ⟨57, _⟩ => ⟨S8x8, .i32⟩
  | .hbm, ⟨58, _⟩ => ⟨S_, .i32⟩
  | .hbm, ⟨59, _⟩ => ⟨S_, .i32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S8x8, .f32⟩
  | .hbm, ⟨66, _⟩ => ⟨S8x8, .f32⟩
  | .hbm, ⟨67, _⟩ => ⟨S_, .f32⟩
  | .hbm, ⟨68, _⟩ => ⟨S_, .f32⟩
  | .hbm, ⟨69, _⟩ => ⟨S_, .f32⟩
  | .local _ .vmem, ⟨0, _⟩ => ⟨S1x128x768, .i32⟩
  | .local _ .vmem, ⟨1, _⟩ => ⟨S1x128x768, .i32⟩
  | .local _ .vmem, ⟨2, _⟩ => ⟨S1x9x128x768, .f32⟩
  | .local _ .vmem, ⟨3, _⟩ => ⟨S1x9x128x768, .f32⟩
  | .local _ .vmem, ⟨4, _⟩ => ⟨S1x9x10, .f32⟩
  | .local _ .vmem, ⟨5, _⟩ => ⟨S1x9x10, .f32⟩
  | _, _ => ⟨S8x768x768, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev main_call0_cst : Ref sig .tc := ⟨.hbm, 35, rfl⟩
abbrev main_call0_v0 : Ref sig .tc := ⟨.hbm, 36, rfl⟩
abbrev main_call0_cst_0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_call0_v5 : Ref sig .tc := ⟨.hbm, 42, rfl⟩
abbrev main_call0_v6 : Ref sig .tc := ⟨.hbm, 43, rfl⟩
abbrev main_call0_cst_1 : Ref sig .tc := ⟨.hbm, 44, rfl⟩
abbrev main_call0_v7 : Ref sig .tc := ⟨.hbm, 45, rfl⟩
abbrev main_call0_v8 : Ref sig .tc := ⟨.hbm, 46, rfl⟩
abbrev main_call0_v9 : Ref sig .tc := ⟨.hbm, 47, rfl⟩
abbrev main_call0_v10 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_4 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_c_5 : Ref sig .tc := ⟨.hbm, 58, rfl⟩
abbrev main_v35 : Ref sig .tc := ⟨.hbm, 59, rfl⟩
abbrev main_v36 : Ref sig .tc := ⟨.hbm, 60, rfl⟩
abbrev main_cst_6 : Ref sig .tc := ⟨.hbm, 61, rfl⟩
abbrev main_v37 : Ref sig .tc := ⟨.hbm, 62, rfl⟩
abbrev main_cst_7 : Ref sig .tc := ⟨.hbm, 63, rfl⟩
abbrev main_call1_v0 : Ref sig .tc := ⟨.hbm, 64, rfl⟩
abbrev main_call1_v1 : Ref sig .tc := ⟨.hbm, 65, rfl⟩
abbrev main_v38 : Ref sig .tc := ⟨.hbm, 66, rfl⟩
abbrev main_cst_8 : Ref sig .tc := ⟨.hbm, 67, rfl⟩
abbrev main_v39 : Ref sig .tc := ⟨.hbm, 68, rfl⟩
abbrev main_v40 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 6], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x768 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x9x128x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x9x10 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x9x10_S1x9x10_0_0_0 : ∀ a, (![0, 0, 0] : Fin 3 → Nat) a + S1x9x10.size a ≤ S1x9x10.size a
  h_S1x9x10 : 0 < S1x9x10.numel
  inb_S1x128x768_S1x128x768_0_0_0 : ∀ a, (![0, 0, 0] : Fin 3 → Nat) a + S1x128x768.size a ≤ S1x128x768.size a
  h_S1x128x768 : 0 < S1x128x768.numel
  shapeCasts_S1x128x768_S128x768 : S1x128x768.ShapeCasts S128x768
  inb_S1x9x128x768_S1x9x128x768_0_0_0_0 : ∀ a, (![0, 0, 0, 0] : Fin 4 → Nat) a + S1x9x128x768.size a ≤ S1x9x128x768.size a
  h_S1x9x128x768 : 0 < S1x9x128x768.numel
  shapeCasts_S1x9x128x768_S9x128x768 : S1x9x128x768.ShapeCasts S9x128x768
  concatenates_S9x128x768_S1x128x768_S10x128x768_d0 : Shape.Concatenates [S9x128x768, S1x128x768] S10x128x768 0
  natLt_1_32 : 1 < 32
  shapeCasts_S128x768_S1x128x768 : S128x768.ShapeCasts S1x128x768
  broadcasts_S1x128x768_S10x128x768 : S1x128x768.Broadcasts S10x128x768
  reduces_S10x128x768_S10x128 : S10x128x768.Reduces [2] S10x128
  reduces_S10x128_S10 : S10x128.Reduces [1] S10
  shapeCasts_S10_S1x10 : S10.ShapeCasts S1x10
  concatenates_S1x10_S1x10_S1x10_S1x10_S1x10_S1x10_S1x10_S1x10_S1x10_S9x10_d0 : Shape.Concatenates [S1x10, S1x10, S1x10, S1x10, S1x10, S1x10, S1x10, S1x10, S1x10] S9x10 0
  shapeCasts_S1x9x10_S9x10 : S1x9x10.ShapeCasts S9x10
  shapeCasts_S9x10_S1x9x10 : S9x10.ShapeCasts S1x9x10
  slices_S8x9x10_S8x9x9_0_0_0 : S8x9x10.Slices ![0, 0, 0] S8x9x9
  slices_S8x9x10_S8x9x1_0_0_9 : S8x9x10.Slices ![0, 0, 9] S8x9x1
  shapeCasts_S8x9x1_S8x9 : S8x9x1.ShapeCasts S8x9
  bcast_S_S9x9 : S_.BroadcastsInDim S9x9 (![] : Fin 0 → Fin S9x9.rank)
  slices_S8x9x9_S8x8x9_0_1_0 : S8x9x9.Slices ![0, 1, 0] S8x8x9
  slices_S8x9_S8x8_0_1 : S8x9.Slices ![0, 1] S8x8
  bcast_S8x8_S8x8x1_0_1 : S8x8.BroadcastsInDim S8x8x1 (![0, 1] : Fin 2 → Fin S8x8x1.rank)
  bcast_S_S8x8x1 : S_.BroadcastsInDim S8x8x1 (![] : Fin 0 → Fin S8x8x1.rank)
  bcast_S8x8x1_S8x8x9_0_1_2 : S8x8x1.BroadcastsInDim S8x8x9 (![0, 1, 2] : Fin 3 → Fin S8x8x9.rank)
  bcast_S_S8x8 : S_.BroadcastsInDim S8x8 (![] : Fin 0 → Fin S8x8.rank)
  reducesTo_S8x8x9_S8x8_d2 : S8x8x9.ReducesTo [2] S8x8
  h_S_ : 0 < S_.numel
  slices_S9x9_S8x9_1_0 : S9x9.Slices ![1, 0] S8x9
  bcast_S8x9_S1x8x9_1_2 : S8x9.BroadcastsInDim S1x8x9 (![1, 2] : Fin 2 → Fin S1x8x9.rank)
  bcast_S1x8x9_S8x8x9_0_1_2 : S1x8x9.BroadcastsInDim S8x8x9 (![0, 1, 2] : Fin 3 → Fin S8x8x9.rank)
  reducesTo_S8x8_S_d0_1 : S8x8.ReducesTo [0, 1] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x768.size a ≤ S8x768x768.size a
  hwx0_0 : ∀ i : grid0.Coords, EltTy.bits .i32 = 32 ∨ (Rect.block (s := S8x768x768) S1x128x768.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x9x128x768.size a ≤ S8x9x768x768.size a
  hwx0_1 : ∀ i : grid0.Coords, EltTy.bits .f32 = 32 ∨ (Rect.block (s := S8x9x768x768) S1x9x128x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x9x10.size a ≤ S8x9x10.size a
  hwx0_2 : ∀ i : grid0.Coords, EltTy.bits .f32 = 32 ∨ (Rect.block (s := S8x9x10) S1x9x10.size (cc0_transform_2 i) (hinb0_2 i)).WholeWords (EltTy.packing .f32)

variable [Facts₀]

abbrev win0_0 : Pipeline.Window sig grid0 :=
  Pipeline.Window.ofSpec (Memref.whole main_arg0) S1x128x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x9x128x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x9x10.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x768x768 : Shape := ⟨3, ![8, 768, 768]⟩
abbrev S8x9x768x768 : Shape := ⟨4, ![8, 9, 768, 768]⟩
abbrev S9x9 : Shape := ⟨2, ![9, 9]⟩
abbrev S_ : Shape := ⟨0, ![]⟩
abbrev S8x768x768x9 : Shape := ⟨4, ![8, 768, 768, 9]⟩
abbrev S4718592x9 : Shape := ⟨2, ![4718592, 9]⟩
abbrev S8 : Shape := ⟨1, ![8]⟩
abbrev S8x1x1 : Shape := ⟨3, ![8, 1, 1]⟩
abbrev S4718592 : Shape := ⟨1, ![4718592]⟩
abbrev S72x9 : Shape := ⟨2, ![72, 9]⟩
abbrev S4718592x1 : Shape := ⟨2, ![4718592, 1]⟩
abbrev S8x9x9 : Shape := ⟨3, ![8, 9, 9]⟩
abbrev S72 : Shape := ⟨1, ![72]⟩
abbrev S8x9 : Shape := ⟨2, ![8, 9]⟩
abbrev S8x8x9 : Shape := ⟨3, ![8, 8, 9]⟩
abbrev S8x8 : Shape := ⟨2, ![8, 8]⟩
abbrev S8x8x1 : Shape := ⟨3, ![8, 8, 1]⟩
abbrev S1x8x9 : Shape := ⟨3, ![1, 8, 9]⟩

abbrev nBuf : Space → Nat
  | .hbm => 88
  | .vmem => 0
  | .smem => 0
  | _ => 0

abbrev bufTy : (tb : Table) → Fin (tcTables nBuf tb) → BufTy
  | .hbm, ⟨0, _⟩ => ⟨S8x768x768, .i32⟩
  | .hbm, ⟨1, _⟩ => ⟨S8x9x768x768, .f32⟩
  | .hbm, ⟨2, _⟩ => ⟨S9x9, .i32⟩
  | .hbm, ⟨3, _⟩ => ⟨S9x9, .i32⟩
  | .hbm, ⟨4, _⟩ => ⟨S_, .i32⟩
  | .hbm, ⟨5, _⟩ => ⟨S9x9, .i32⟩
  | .hbm, ⟨6, _⟩ => ⟨S9x9, .i32⟩
  | .hbm, ⟨7, _⟩ => ⟨S9x9, .i1⟩
  | .hbm, ⟨8, _⟩ => ⟨S9x9, .f32⟩
  | .hbm, ⟨9, _⟩ => ⟨S_, .f32⟩
  | .hbm, ⟨10, _⟩ => ⟨S9x9, .f32⟩
  | .hbm, ⟨11, _⟩ => ⟨S9x9, .f32⟩
  | .hbm, ⟨12, _⟩ => ⟨S_, .f32⟩
  | .hbm, ⟨13, _⟩ => ⟨S9x9, .f32⟩
  | .hbm, ⟨14, _⟩ => ⟨S9x9, .f32⟩
  | .hbm, ⟨15, _⟩ => ⟨S_, .f32⟩
  | .hbm, ⟨16, _⟩ => ⟨S9x9, .f32⟩
  | .hbm, ⟨17, _⟩ => ⟨S9x9, .f32⟩
  | .hbm, ⟨18, _⟩ => ⟨S9x9, .f32⟩
  | .hbm, ⟨19, _⟩ => ⟨S8x768x768x9, .f32⟩
  | .hbm, ⟨20, _⟩ => ⟨S4718592x9, .f32⟩
  | .hbm, ⟨21, _⟩ => ⟨S8, .i32⟩
  | .hbm, ⟨22, _⟩ => ⟨S8x1x1, .i32⟩
  | .hbm, ⟨23, _⟩ => ⟨S_, .i32⟩
  | .hbm, ⟨24, _⟩ => ⟨S8x1x1, .i32⟩
  | .hbm, ⟨25, _⟩ => ⟨S8x1x1, .i32⟩
  | .hbm, ⟨26, _⟩ => ⟨S8x768x768, .i32⟩
  | .hbm, ⟨27, _⟩ => ⟨S8x768x768, .i32⟩
  | .hbm, ⟨28, _⟩ => ⟨S4718592, .i32⟩
  | .hbm, ⟨29, _⟩ => ⟨S_, .f32⟩
  | .hbm, ⟨30, _⟩ => ⟨S72x9, .f32⟩
  | .hbm, ⟨31, _⟩ => ⟨S4718592x1, .i32⟩
  | .hbm, ⟨32, _⟩ => ⟨S72x9, .f32⟩
  | .hbm, ⟨33, _⟩ => ⟨S8x9x9, .f32⟩
  | .hbm, ⟨34, _⟩ => ⟨S_, .f32⟩
  | .hbm, ⟨35, _⟩ => ⟨S4718592, .f32⟩
  | .hbm, ⟨36, _⟩ => ⟨S_, .f32⟩
  | .hbm, ⟨37, _⟩ => ⟨S72, .f32⟩
  | .hbm, ⟨38, _⟩ => ⟨S4718592x1, .i32⟩
  | .hbm, ⟨39, _⟩ => ⟨S72, .f32⟩
  | .hbm, ⟨40, _⟩ => ⟨S8x9, .f32⟩
  | .hbm, ⟨41, _⟩ => ⟨S8x8x9, .f32⟩
  | .hbm, ⟨42, _⟩ => ⟨S8x8, .f32⟩
  | .hbm, ⟨43, _⟩ => ⟨S8x8x1, .f32⟩
  | .hbm, ⟨44, _⟩ => ⟨S_, .f32⟩
  | .hbm, ⟨45, _⟩ => ⟨S8x8x1, .f32⟩
  | .hbm, ⟨46, _⟩ => ⟨S8x8x1, .f32⟩
  | .hbm, ⟨47, _⟩ => ⟨S8x8x9, .f32⟩
  | .hbm, ⟨48, _⟩ => ⟨S8x8x9, .f32⟩
  | .hbm, ⟨49, _⟩ => ⟨S8x8, .f32⟩
  | .hbm, ⟨50, _⟩ => ⟨S_, .f32⟩
  | .hbm, ⟨51, _⟩ => ⟨S8x8, .f32⟩
  | .hbm, ⟨52, _⟩ => ⟨S8x8, .i1⟩
  | .hbm, ⟨53, _⟩ => ⟨S_, .f32⟩
  | .hbm, ⟨54, _⟩ => ⟨S8x8, .f32⟩
  | .hbm, ⟨55, _⟩ => ⟨S_, .f32⟩
  | .hbm, ⟨56, _⟩ => ⟨S8x8, .f32⟩
  | .hbm, ⟨57, _⟩ => ⟨S8x8, .f32⟩
  | .hbm, ⟨58, _⟩ => ⟨S8x8x1, .f32⟩
  | .hbm, ⟨59, _⟩ => ⟨S8x8x9, .f32⟩
  | .hbm, ⟨60, _⟩ => ⟨S8x8x9, .f32⟩
  | .hbm, ⟨61, _⟩ => ⟨S8x8x9, .f32⟩
  | .hbm, ⟨62, _⟩ => ⟨S_, .f32⟩
  | .hbm, ⟨63, _⟩ => ⟨S8x8, .f32⟩
  | .hbm, ⟨64, _⟩ => ⟨S8x8x1, .f32⟩
  | .hbm, ⟨65, _⟩ => ⟨S8x8x1, .f32⟩
  | .hbm, ⟨66, _⟩ => ⟨S8x8x9, .f32⟩
  | .hbm, ⟨67, _⟩ => ⟨S8x8x9, .f32⟩
  | .hbm, ⟨68, _⟩ => ⟨S8x9, .f32⟩
  | .hbm, ⟨69, _⟩ => ⟨S1x8x9, .f32⟩
  | .hbm, ⟨70, _⟩ => ⟨S8x8x9, .f32⟩
  | .hbm, ⟨71, _⟩ => ⟨S8x8x9, .f32⟩
  | .hbm, ⟨72, _⟩ => ⟨S_, .f32⟩
  | .hbm, ⟨73, _⟩ => ⟨S8x8, .f32⟩
  | .hbm, ⟨74, _⟩ => ⟨S8x8, .f32⟩
  | .hbm, ⟨75, _⟩ => ⟨S8x8, .i32⟩
  | .hbm, ⟨76, _⟩ => ⟨S_, .i32⟩
  | .hbm, ⟨77, _⟩ => ⟨S_, .i32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S8x8, .f32⟩
  | .hbm, ⟨84, _⟩ => ⟨S8x8, .f32⟩
  | .hbm, ⟨85, _⟩ => ⟨S_, .f32⟩
  | .hbm, ⟨86, _⟩ => ⟨S_, .f32⟩
  | .hbm, ⟨87, _⟩ => ⟨S_, .f32⟩
  | _, _ => ⟨S8x768x768, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_4 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_6 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_7 : Ref sig .tc := ⟨.hbm, 50, rfl⟩
abbrev main_v39 : Ref sig .tc := ⟨.hbm, 51, rfl⟩
abbrev main_v40 : Ref sig .tc := ⟨.hbm, 52, rfl⟩
abbrev main_call0_cst : Ref sig .tc := ⟨.hbm, 53, rfl⟩
abbrev main_call0_v0 : Ref sig .tc := ⟨.hbm, 54, rfl⟩
abbrev main_call0_cst_0 : Ref sig .tc := ⟨.hbm, 55, rfl⟩
abbrev main_call0_v1 : Ref sig .tc := ⟨.hbm, 56, rfl⟩
abbrev main_call0_v2 : Ref sig .tc := ⟨.hbm, 57, rfl⟩
abbrev main_call0_v3 : Ref sig .tc := ⟨.hbm, 58, rfl⟩
abbrev main_call0_v4 : Ref sig .tc := ⟨.hbm, 59, rfl⟩
abbrev main_call0_v5 : Ref sig .tc := ⟨.hbm, 60, rfl⟩
abbrev main_call0_v6 : Ref sig .tc := ⟨.hbm, 61, rfl⟩
abbrev main_call0_cst_1 : Ref sig .tc := ⟨.hbm, 62, rfl⟩
abbrev main_call0_v7 : Ref sig .tc := ⟨.hbm, 63, rfl⟩
abbrev main_call0_v8 : Ref sig .tc := ⟨.hbm, 64, rfl⟩
abbrev main_call0_v9 : Ref sig .tc := ⟨.hbm, 65, rfl⟩
abbrev main_call0_v10 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_8 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_c_9 : Ref sig .tc := ⟨.hbm, 76, rfl⟩
abbrev main_v49 : Ref sig .tc := ⟨.hbm, 77, rfl⟩
abbrev main_v50 : Ref sig .tc := ⟨.hbm, 78, rfl⟩
abbrev main_cst_10 : Ref sig .tc := ⟨.hbm, 79, rfl⟩
abbrev main_v51 : Ref sig .tc := ⟨.hbm, 80, rfl⟩
abbrev main_cst_11 : Ref sig .tc := ⟨.hbm, 81, rfl⟩
abbrev main_call1_v0 : Ref sig .tc := ⟨.hbm, 82, rfl⟩
abbrev main_call1_v1 : Ref sig .tc := ⟨.hbm, 83, rfl⟩
abbrev main_v52 : Ref sig .tc := ⟨.hbm, 84, rfl⟩
abbrev main_cst_12 : Ref sig .tc := ⟨.hbm, 85, rfl⟩
abbrev main_v53 : Ref sig .tc := ⟨.hbm, 86, rfl⟩
abbrev main_v54 : Ref sig .tc := ⟨.hbm, 87, rfl⟩

abbrev nD : Nat := 1
abbrev τ : Topo := Topo.v7x

variable {F : FTy → Type} [FloatOps F]

class Facts₀ : Prop where
  bcast_S_S9x9 : S_.BroadcastsInDim S9x9 (![] : Fin 0 → Fin S9x9.rank)
  transposes_S8x9x768x768_S8x768x768x9_0_2_3_1 : S8x9x768x768.Transposes [0, 2, 3, 1] S8x768x768x9
  shapeCasts_S8x768x768x9_S4718592x9 : S8x768x768x9.ShapeCasts S4718592x9
  bcast_S8_S8x1x1_0 : S8.BroadcastsInDim S8x1x1 (![0] : Fin 1 → Fin S8x1x1.rank)
  bcast_S_S8x1x1 : S_.BroadcastsInDim S8x1x1 (![] : Fin 0 → Fin S8x1x1.rank)
  bcast_S8x1x1_S8x768x768_0_1_2 : S8x1x1.BroadcastsInDim S8x768x768 (![0, 1, 2] : Fin 3 → Fin S8x768x768.rank)
  shapeCasts_S8x768x768_S4718592 : S8x768x768.ShapeCasts S4718592
  bcast_S_S72x9 : S_.BroadcastsInDim S72x9 (![] : Fin 0 → Fin S72x9.rank)
  bcast_S4718592_S4718592x1_0 : S4718592.BroadcastsInDim S4718592x1 (![0] : Fin 1 → Fin S4718592x1.rank)
  shapeCasts_S72x9_S8x9x9 : S72x9.ShapeCasts S8x9x9
  bcast_S_S4718592 : S_.BroadcastsInDim S4718592 (![] : Fin 0 → Fin S4718592.rank)
  bcast_S_S72 : S_.BroadcastsInDim S72 (![] : Fin 0 → Fin S72.rank)
  shapeCasts_S72_S8x9 : S72.ShapeCasts S8x9
  slices_S8x9x9_S8x8x9_0_1_0 : S8x9x9.Slices ![0, 1, 0] S8x8x9
  slices_S8x9_S8x8_0_1 : S8x9.Slices ![0, 1] S8x8
  bcast_S8x8_S8x8x1_0_1 : S8x8.BroadcastsInDim S8x8x1 (![0, 1] : Fin 2 → Fin S8x8x1.rank)
  bcast_S_S8x8x1 : S_.BroadcastsInDim S8x8x1 (![] : Fin 0 → Fin S8x8x1.rank)
  bcast_S8x8x1_S8x8x9_0_1_2 : S8x8x1.BroadcastsInDim S8x8x9 (![0, 1, 2] : Fin 3 → Fin S8x8x9.rank)
  bcast_S_S8x8 : S_.BroadcastsInDim S8x8 (![] : Fin 0 → Fin S8x8.rank)
  reducesTo_S8x8x9_S8x8_d2 : S8x8x9.ReducesTo [2] S8x8
  h_S_ : 0 < S_.numel
  slices_S9x9_S8x9_1_0 : S9x9.Slices ![1, 0] S8x9
  bcast_S8x9_S1x8x9_1_2 : S8x9.BroadcastsInDim S1x8x9 (![1, 2] : Fin 2 → Fin S1x8x9.rank)
  bcast_S1x8x9_S8x8x9_0_1_2 : S1x8x9.BroadcastsInDim S8x8x9 (![0, 1, 2] : Fin 3 → Fin S8x8x9.rank)
  natLt_1_32 : 1 < 32
  reducesTo_S8x8_S_d0_1 : S8x8.ReducesTo [0, 1] S_
  scatter_S72x9_S4718592x1_S4718592x9_1_0_0_1_wf : ScatterDims.WF S72x9 S4718592x1 S4718592x9 [1] [0] [0] 1
  scatter_S72_S4718592x1_S4718592_n_0_0_1_wf : ScatterDims.WF S72 S4718592x1 S4718592 [] [0] [0] 1

variable [Facts₀]

def scatter_S72x9_S4718592x1_S4718592x9_1_0_0_1 : ScatterDims S72x9 S4718592x1 S4718592x9 where
  updateWindowDims := [1]
  insertedWindowDims := [0]
  scatterDimsToOperandDims := [0]
  indexVectorDim := 1
  wf := scatter_S72x9_S4718592x1_S4718592x9_1_0_0_1_wf
def scatter_S72_S4718592x1_S4718592_n_0_0_1 : ScatterDims S72 S4718592x1 S4718592 where
  updateWindowDims := []
  insertedWindowDims := [0]
  scatterDimsToOperandDims := [0]
  indexVectorDim := 1
  wf := scatter_S72_S4718592x1_S4718592_n_0_0_1_wf

class Facts : Prop extends Facts₀ where

variable [Facts]
-- ==== Proof.Kernel.Entry.lean ====
/-
  The kernel program around its one pallas_call, at any float instance.

  @main is the pallas_call followed by 67 host lines in five stretches; nothing runs before the call, so every
  buffer is at its launch contents when the region is entered. Here: that reading of @main; that the later lines
  touch only unscoped TensorCore buffers, allocate nothing and write none of the three arrays the call's windows
  stage (the label map, the feature maps, the per-(image, class) totals); what block of its array each window
  holds at a grid point; and the one branch of the body — the totals are reset at the first of the six row tiles
  of an image, which over the 48 points of the 8 x 6 grid are the points divisible by 6.
-/
import proofs.«412884_j48808008352330_1_alg».proof.Proof.Gen.Kernel.Launch
import proofs.«412884_j48808008352330_1_alg».proof.Proof.Gen.Kernel.Skeleton
import proofs.«412884_j48808008352330_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host lines after the region, stretch by stretch: the slices and the smoothed targets, the log-softmax, the
    weighted sum and the count of present classes, the masking, and the final quotient. -/
abbrev tailOps : List (List (HloOp τ sig (Elt F))) := [hostOps1, hostOps1_1, hostOps1_2, hostOps1_3, hostOps1_4]

/-- A core's TensorCore buffers when the region is entered: the launch contents (no line runs before the call). -/
abbrev V0 (c : Dev nD) : Valuation τ sig (Elt F) := StableHlo.after (List.flatten []) (fun b => m (c, b))
abbrev V (c : Dev nD) (b : Ref sig .tc) : Buf (Elt F) ((c : Thread nD τ).loc b) := V0 m c (Proc.devRef .tc b)

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

/-- @main is the region continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [] tailOps (by simp only [List.Forall])
    (by simp only [List.Forall]) main_chain

/-- The later lines touch only the arrays and the buffers that bypass the region. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop

/-- Each line writes its own result buffer only, and no result buffer is one of the three arrays. -/
macro "keeps_lines" : tactic => `(tactic|
  (simp only [List.Forall]
   repeat' apply And.intro
   all_goals
     intro w
     fin_cases w <;>
       simp only [StableHlo.TRef.nullary, StableHlo.TRef.unary, StableHlo.TRef.binary, StableHlo.TRef.ternary,
         StableHlo.nullary_writes, StableHlo.unary_writes, StableHlo.binary_writes, StableHlo.ternary_writes,
         StableHlo.quaternary_writes, StableHlo.reshape_writes, StableHlo.binaryIndexed_writes, Finset.mem_singleton] <;>
       exact StableHlo.devRef_ne_of_ne (by decide)))

theorem hostOps1_keeps : (hostOps1 : List (HloOp τ sig (Elt F))).Forall fun op =>
    ∀ w, Proc.devRef .tc (Pipeline.arrRef spec0 w) ∉ op.writes := by keeps_lines
theorem hostOps1_1_keeps : (hostOps1_1 : List (HloOp τ sig (Elt F))).Forall fun op =>
    ∀ w, Proc.devRef .tc (Pipeline.arrRef spec0 w) ∉ op.writes := by keeps_lines
theorem hostOps1_2_keeps : (hostOps1_2 : List (HloOp τ sig (Elt F))).Forall fun op =>
    ∀ w, Proc.devRef .tc (Pipeline.arrRef spec0 w) ∉ op.writes := by keeps_lines
theorem hostOps1_3_keeps : (hostOps1_3 : List (HloOp τ sig (Elt F))).Forall fun op =>
    ∀ w, Proc.devRef .tc (Pipeline.arrRef spec0 w) ∉ op.writes := by keeps_lines
theorem hostOps1_4_keeps : (hostOps1_4 : List (HloOp τ sig (Elt F))).Forall fun op =>
    ∀ w, Proc.devRef .tc (Pipeline.arrRef spec0 w) ∉ op.writes := by keeps_lines

theorem sfx_keeps : ∀ ops ∈ (tailOps : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop

theorem V_main_arg0 (c : Dev nD) : V m c main_arg0 = m ((c : Thread nD τ).loc main_arg0) := rfl
theorem V_main_arg1 (c : Dev nD) : V m c main_arg1 = m ((c : Thread nD τ).loc main_arg1) := rfl

/-! ## The windows' blocks -/

/-- Window `w`'s block at point `t`, read off its array as the region finds it: for the label map rows
    `128 j .. 128 j + 127` of image `b`, for the feature maps the same rows of all nine channels, for the totals
    the 9 x 10 table of image `b`, where `t = 6 b + j`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, for any proof data whose array is the
    region-entry one and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## From a run to the frame claim -/

/-- For proof data whose arrays are the region-entry contents, a run ending with every array at what the data
    compute and every other buffer at the later lines' result leaves both argument arrays as launched: each is
    staged by an input window, which is never written back. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 0).trans (((dats 0 c).arrAt_in 0 rfl _).trans ((hA c 0).trans (V_main_arg0 m c))),
     ((h c).1 1).trans (((dats 0 c).arrAt_in 1 rfl _).trans ((hA c 1).trans (V_main_arg1 m c)))⟩) h

/-! ## The body's branch -/

/-- The body's one condition, from the grid coordinates: the row-tile coordinate is zero. -/
abbrev cond0_0 (i : grid0.Coords) : Prop := (Scalar.cmpi .ne (Scalar.extui (Scalar.cmpi .eq (BitVec.ofNat 32 (i 1).val) 0#32)) 0#32) = 1#1
/-- Over the 48 points it holds exactly at those divisible by 6. -/
theorem hcond0_0 : ∀ t : Fin cfg0.N, cond0_0 (grid0.coords t) ↔ t.val % 6 = 0 :=
  (by decide +kernel : ∀ t : Fin grid0.N, cond0_0 (grid0.coords t) ↔ t.val % 6 = 0)

/-! ## The staging memrefs -/

/-- One staging buffer of the totals' window, through which its contents are stated. -/
abbrev VO0_2 : View sig .tc .vmem S1x9x10 .f32 := (Memref.whole cc0_stg2_0 : Memref sig .tc .vmem S1x9x10 .f32).view
abbrev ms0_0 (t : Fin cfg0.N) : Memref sig .tc .vmem S1x128x768 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x9x128x768 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x9x10 .f32 := win0_2.stage (cfg0.slots t 2)
abbrev hs0_2 (t : Fin cfg0.N) : (ms0_2 t).IsWhole := hstage0_2 ((cfg0.slots t 2).cast nbuf0_2)

end Cert.Kernel.Hand

end
-- ==== Proof.Kernel.RunA.lean ====
/-
  The kernel body at the first row tile of an image, at any float instance.

  There the body overwrites the table of totals with zeros before anything else, so what it leaves does not depend
  on what the buffer held: it loads the tile's labels and features, and stores the zero table plus the tile's
  per-class sums. Stated on any whole staging memrefs holding the two input blocks: the body runs without a
  fault, gives the inputs back as they were, and leaves the totals' buffer with the pieces its stores wrote
  (the witness), whatever the buffer held before.
-/
import proofs.«412884_j48808008352330_1_alg».proof.Proof.Kernel.Entry

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body where the reset branch is taken: the pieces its stores leave in the totals' buffer, with the run. -/
noncomputable def kernelRun0_A (c : Dev nD) (i : grid0.Coords)
    (arg2 : Memref sig .tc .vmem S1x128x768 .i32) (harg2 : arg2.IsWhole)
    (arg3 : Memref sig .tc .vmem S1x9x128x768 .f32) (harg3 : arg3.IsWhole)
    (arg4 : Memref sig .tc .vmem S1x9x10 .f32) (harg4 : arg4.IsWhole) (hc0 : cond0_0 i)
    (x0 : Vec F S1x128x768 .i32) (x1 : Vec F S1x9x128x768 .f32) :
    { L2 : List (View.Piece (Elt F) S1x9x10 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)) -∗ K ⟨⟩))
          ⊢ wp frame (wpE (defs₀ (F := F)) Variants.none c none) E (cc0_kernel i arg2 harg2 arg3 harg3 arg4 harg4) K } := by
  refine ⟨?_, fun E K => ?run⟩
  case run =>
    simp only [cc0_kernel_eq_skeleton]; unfold cc0_kernel_skel
    simp only [k0_part1_eq_skeleton, k0_part2_eq_skeleton]
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.Kernel.Hand

end
-- ==== Proof.Kernel.RunB.lean ====
/-
  The kernel body at a later row tile of an image, at any float instance.

  There the reset branch is not taken: the body loads the running table of totals, adds the tile's per-class
  sums, and stores the result, so what it leaves depends on what the buffer held. Stated on any whole staging
  memrefs holding the two input blocks and the running table: the body runs without a fault, gives the inputs
  back as they were, and leaves the totals' buffer with the pieces its store wrote (the witness).
-/
import proofs.«412884_j48808008352330_1_alg».proof.Proof.Kernel.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body where the reset branch is not taken: the pieces its store leaves in the totals' buffer, with the run. -/
noncomputable def kernelRun0_B (c : Dev nD) (i : grid0.Coords)
    (arg2 : Memref sig .tc .vmem S1x128x768 .i32) (harg2 : arg2.IsWhole)
    (arg3 : Memref sig .tc .vmem S1x9x128x768 .f32) (harg3 : arg3.IsWhole)
    (arg4 : Memref sig .tc .vmem S1x9x10 .f32) (harg4 : arg4.IsWhole) (hc0 : ¬cond0_0 i)
    (x0 : Vec F S1x128x768 .i32) (x1 : Vec F S1x9x128x768 .f32) (xo2 : Vec F S1x9x10 .f32) :
    { L2 : List (View.Piece (Elt F) S1x9x10 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)) -∗ K ⟨⟩))
          ⊢ wp frame (wpE (defs₀ (F := F)) Variants.none c none) E (cc0_kernel i arg2 harg2 arg3 harg3 arg4 harg4) K } := by
  refine ⟨?_, fun E K => ?run⟩
  case run =>
    simp only [cc0_kernel_eq_skeleton]; unfold cc0_kernel_skel
    simp only [k0_part1_eq_skeleton, k0_part2_eq_skeleton]
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.Kernel.Hand

end
-- ==== Proof.Kernel.Frame.lean ====
/-
  The kernel program's frame, at any float instance: it runs to the end, faults nowhere, and leaves the label map
  and the feature maps as launched.

  The table of totals of image `b` is built over the six points `6 b .. 6 b + 5` of the grid: the first resets
  it and adds its row tile's sums, each later one adds its tile's sums to what the point before left, and only
  the sixth writes the table back to its array. So what the totals' staging buffer holds after a point is defined
  by recursion on the point; with that, each point's body is one of the two runs, the region's launch theorem
  applies, and the 67 host lines after the region run from the region's exit.
-/
import proofs.«412884_j48808008352330_1_alg».proof.Proof.Kernel.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The stores of either case cover the whole 1 x 9 x 10 table. -/
theorem cover0_A_2 (c : Dev nD) (i : grid0.Coords) (arg2 : Memref sig .tc .vmem S1x128x768 .i32) (harg2 : arg2.IsWhole) (arg3 : Memref sig .tc .vmem S1x9x128x768 .f32) (harg3 : arg3.IsWhole) (arg4 : Memref sig .tc .vmem S1x9x10 .f32) (harg4 : arg4.IsWhole) (hc0 : cond0_0 i)
    (x0 : Vec F S1x128x768 .i32) (x1 : Vec F S1x9x128x768 .f32) (y : S1x9x10.Idx) :
    ∃ pc ∈ (kernelRun0_A c i arg2 harg2 arg3 harg3 arg4 harg4 hc0 x0 x1).1, y ∈ pc.1.set :=
  View.cover_of_tiledL (kernelRun0_A c i arg2 harg2 arg3 harg3 arg4 harg4 hc0 x0 x1).1 S1x9x10.size (by sl_kernel_rfl) y

/-- What the reset case leaves in the totals' buffer: its pieces read back. -/
def out0_A_2 (c : Dev nD) (i : grid0.Coords) (arg2 : Memref sig .tc .vmem S1x128x768 .i32) (harg2 : arg2.IsWhole) (arg3 : Memref sig .tc .vmem S1x9x128x768 .f32) (harg3 : arg3.IsWhole) (arg4 : Memref sig .tc .vmem S1x9x10 .f32) (harg4 : arg4.IsWhole) (hc0 : cond0_0 i)
    (x0 : Vec F S1x128x768 .i32) (x1 : Vec F S1x9x128x768 .f32) : Vec F S1x9x10 .f32 :=
  VO0_2.read (Elt F) (VO0_2.writes (Elt F) VO0_2.junk (kernelRun0_A c i arg2 harg2 arg3 harg3 arg4 harg4 hc0 x0 x1).1)

theorem cover0_B_2 (c : Dev nD) (i : grid0.Coords) (arg2 : Memref sig .tc .vmem S1x128x768 .i32) (harg2 : arg2.IsWhole) (arg3 : Memref sig .tc .vmem S1x9x128x768 .f32) (harg3 : arg3.IsWhole) (arg4 : Memref sig .tc .vmem S1x9x10 .f32) (harg4 : arg4.IsWhole) (hc0 : ¬cond0_0 i)
    (x0 : Vec F S1x128x768 .i32) (x1 : Vec F S1x9x128x768 .f32) (xo2 : Vec F S1x9x10 .f32) (y : S1x9x10.Idx) :
    ∃ pc ∈ (kernelRun0_B c i arg2 harg2 arg3 harg3 arg4 harg4 hc0 x0 x1 xo2).1, y ∈ pc.1.set :=
  View.cover_of_tiledL (kernelRun0_B c i arg2 harg2 arg3 harg3 arg4 harg4 hc0 x0 x1 xo2).1 S1x9x10.size (by sl_kernel_rfl) y

/-- What a later tile's case leaves in the totals' buffer over the running table `xo2`: its pieces read back. -/
def out0_B_2 (c : Dev nD) (i : grid0.Coords) (arg2 : Memref sig .tc .vmem S1x128x768 .i32) (harg2 : arg2.IsWhole) (arg3 : Memref sig .tc .vmem S1x9x128x768 .f32) (harg3 : arg3.IsWhole) (arg4 : Memref sig .tc .vmem S1x9x10 .f32) (harg4 : arg4.IsWhole) (hc0 : ¬cond0_0 i)
    (x0 : Vec F S1x128x768 .i32) (x1 : Vec F S1x9x128x768 .f32) (xo2 : Vec F S1x9x10 .f32) : Vec F S1x9x10 .f32 :=
  VO0_2.read (Elt F) (VO0_2.writes (Elt F) VO0_2.junk (kernelRun0_B c i arg2 harg2 arg3 harg3 arg4 harg4 hc0 x0 x1 xo2).1)

/-! ## What the totals' buffer holds after each point -/

/-- After point `n`: at a first tile (`n` divisible by 6) the reset case's table from the tile's blocks alone;
    at a later tile that case's table over what point `n - 1` left. -/
def outsAt0 (c : Dev nD) : (n : ℕ) → n < cfg0.N → Vec F S1x9x10 .f32
  | 0, hn => out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) ((hcond0_0 ⟨0, hn⟩).mpr (Nat.zero_mod _)) (iblk m c 0 ⟨0, hn⟩) (iblk m c 1 ⟨0, hn⟩)
  | n + 1, hn =>
    if h0 : (n + 1) % 6 = 0 then
      out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) ((hcond0_0 ⟨n + 1, hn⟩).mpr h0) (iblk m c 0 ⟨n + 1, hn⟩) (iblk m c 1 ⟨n + 1, hn⟩)
    else
      out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn))

theorem outsAt0_A (c : Dev nD) (t : Fin cfg0.N) (h0 : t.val % 6 = 0) :
    outsAt0 m c t.val t.isLt = out0_A_2 c (grid0.coords t) (ms0_0 t) (hs0_0 t) (ms0_1 t) (hs0_1 t) (ms0_2 t) (hs0_2 t) ((hcond0_0 t).mpr h0) (iblk m c 0 t) (iblk m c 1 t) := by
  obtain ⟨n, hn⟩ := t
  cases n with
  | zero => exact rfl
  | succ n => exact (dif_pos h0).trans rfl

theorem outsAt0_B (c : Dev nD) (t : Fin cfg0.N) (h0 : ¬t.val % 6 = 0) :
    outsAt0 m c t.val t.isLt = out0_B_2 c (grid0.coords t) (ms0_0 t) (hs0_0 t) (ms0_1 t) (hs0_1 t) (ms0_2 t) (hs0_2 t) (fun h => h0 ((hcond0_0 t).mp h)) (iblk m c 0 t) (iblk m c 1 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The proof data -/

/-- The arrays as the region finds them; after the body at point `t` each input's buffer at its block and the
    totals' at `outsAt0`; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- At a later tile the totals' staging buffer holds what the point before left: the point is not the first and
    the buffer was not written back in between (it is written back only after a sixth tile). -/
theorem before0_2_B (c : Dev nD) (t : Fin cfg0.N) (h0 : ¬t.val % 6 = 0) (d) :
    (dats m 0 c).before 2 t d = (outsAt0 m c (t.val - 1) (Nat.lt_of_le_of_lt (Nat.sub_le _ _) t.isLt)) := by
  have hN : t.val < 48 := lt_of_lt_of_eq t.isLt (show cfg0.N = 48 from N_0)
  rw [Dat.before_out_kept _ 2 rfl t (by omega) (Bool.eq_false_iff.mpr fun h => by have := (flush0_2 _).mp h; dsimp only at this; omega)
    (fun _ => rfl) (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t))

set_option maxHeartbeats 800000 in
/-- The body at any point: the inputs' buffers hold their blocks; the point is a first tile or a later one; at a
    later one the totals' buffer holds what the point before left; so that case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  have hN : t.val < 48 := lt_of_lt_of_eq t.isLt (show cfg0.N = 48 from N_0)
  by_cases h0 : t.val % 6 = 0
  · rw [outsAt0_A m c t h0]
    unfold out0_A_2
    iintro ⟨HΦ, Ho, ⟨%d0, H0⟩, ⟨%d1, H1⟩, ⟨%d2, H2⟩⟩
    iapply ((kernelRun0_A c (grid0.coords t) _ _ _ _ _ _ ((hcond0_0 t).mpr h0) (iblk m c 0 t) (iblk m c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_A_2 c _ _ _ _ _ _ _ _ _ _)
  · rw [outsAt0_B m c t h0]
    simp only [before0_2_B m c t h0]
    unfold out0_B_2
    iintro ⟨HΦ, Ho, ⟨%d0, H0⟩, ⟨%d1, H1⟩, ⟨%d2, H2⟩⟩
    iapply ((kernelRun0_B c (grid0.coords t) _ _ _ _ _ _ (fun h => h0 ((hcond0_0 t).mp h)) (iblk m c 0 t) (iblk m c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_B_2 c _ _ _ _ _ _ _ _ _ _ _)

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has each of the three arrays at what
    the proof data compute and every other unscoped buffer at what the later lines compute from the region's exit. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The frame claim's statement at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Hand

end
-- ==== Proof.KernelIdeal.Entry.lean ====
/-
  The kernel program around its one pallas_call, at any float instance.

  @main is the pallas_call followed by 67 host lines in five stretches; nothing runs before the call, so every
  buffer is at its launch contents when the region is entered. Here: that reading of @main; that the later lines
  touch only unscoped TensorCore buffers, allocate nothing and write none of the three arrays the call's windows
  stage (the label map, the feature maps, the per-(image, class) totals); what block of its array each window
  holds at a grid point; and the one branch of the body — the totals are reset at the first of the six row tiles
  of an image, which over the 48 points of the 8 x 6 grid are the points divisible by 6.
-/
import proofs.«412884_j48808008352330_1_alg».proof.Proof.Gen.KernelIdeal.Launch
import proofs.«412884_j48808008352330_1_alg».proof.Proof.Gen.KernelIdeal.Skeleton
import proofs.«412884_j48808008352330_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host lines after the region, stretch by stretch: the slices and the smoothed targets, the log-softmax, the
    weighted sum and the count of present classes, the masking, and the final quotient. -/
abbrev tailOps : List (List (HloOp τ sig (Elt F))) := [hostOps1, hostOps1_1, hostOps1_2, hostOps1_3, hostOps1_4]

/-- A core's TensorCore buffers when the region is entered: the launch contents (no line runs before the call). -/
abbrev V0 (c : Dev nD) : Valuation τ sig (Elt F) := StableHlo.after (List.flatten []) (fun b => m (c, b))
abbrev V (c : Dev nD) (b : Ref sig .tc) : Buf (Elt F) ((c : Thread nD τ).loc b) := V0 m c (Proc.devRef .tc b)

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

/-- @main is the region continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [] tailOps (by simp only [List.Forall])
    (by simp only [List.Forall]) main_chain

/-- The later lines touch only the arrays and the buffers that bypass the region. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop

/-- Each line writes its own result buffer only, and no result buffer is one of the three arrays. -/
macro "keeps_lines" : tactic => `(tactic|
  (simp only [List.Forall]
   repeat' apply And.intro
   all_goals
     intro w
     fin_cases w <;>
       simp only [StableHlo.TRef.nullary, StableHlo.TRef.unary, StableHlo.TRef.binary, StableHlo.TRef.ternary,
         StableHlo.nullary_writes, StableHlo.unary_writes, StableHlo.binary_writes, StableHlo.ternary_writes,
         StableHlo.quaternary_writes, StableHlo.reshape_writes, StableHlo.binaryIndexed_writes, Finset.mem_singleton] <;>
       exact StableHlo.devRef_ne_of_ne (by decide)))

theorem hostOps1_keeps : (hostOps1 : List (HloOp τ sig (Elt F))).Forall fun op =>
    ∀ w, Proc.devRef .tc (Pipeline.arrRef spec0 w) ∉ op.writes := by keeps_lines
theorem hostOps1_1_keeps : (hostOps1_1 : List (HloOp τ sig (Elt F))).Forall fun op =>
    ∀ w, Proc.devRef .tc (Pipeline.arrRef spec0 w) ∉ op.writes := by keeps_lines
theorem hostOps1_2_keeps : (hostOps1_2 : List (HloOp τ sig (Elt F))).Forall fun op =>
    ∀ w, Proc.devRef .tc (Pipeline.arrRef spec0 w) ∉ op.writes := by keeps_lines
theorem hostOps1_3_keeps : (hostOps1_3 : List (HloOp τ sig (Elt F))).Forall fun op =>
    ∀ w, Proc.devRef .tc (Pipeline.arrRef spec0 w) ∉ op.writes := by keeps_lines
theorem hostOps1_4_keeps : (hostOps1_4 : List (HloOp τ sig (Elt F))).Forall fun op =>
    ∀ w, Proc.devRef .tc (Pipeline.arrRef spec0 w) ∉ op.writes := by keeps_lines

theorem sfx_keeps : ∀ ops ∈ (tailOps : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop

theorem V_main_arg0 (c : Dev nD) : V m c main_arg0 = m ((c : Thread nD τ).loc main_arg0) := rfl
theorem V_main_arg1 (c : Dev nD) : V m c main_arg1 = m ((c : Thread nD τ).loc main_arg1) := rfl

/-! ## The windows' blocks -/

/-- Window `w`'s block at point `t`, read off its array as the region finds it: for the label map rows
    `128 j .. 128 j + 127` of image `b`, for the feature maps the same rows of all nine channels, for the totals
    the 9 x 10 table of image `b`, where `t = 6 b + j`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, for any proof data whose array is the
    region-entry one and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## From a run to the frame claim -/

/-- For proof data whose arrays are the region-entry contents, a run ending with every array at what the data
    compute and every other buffer at the later lines' result leaves both argument arrays as launched: each is
    staged by an input window, which is never written back. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 0).trans (((dats 0 c).arrAt_in 0 rfl _).trans ((hA c 0).trans (V_main_arg0 m c))),
     ((h c).1 1).trans (((dats 0 c).arrAt_in 1 rfl _).trans ((hA c 1).trans (V_main_arg1 m c)))⟩) h

/-! ## The body's branch -/

/-- The body's one condition, from the grid coordinates: the row-tile coordinate is zero. -/
abbrev cond0_0 (i : grid0.Coords) : Prop := (Scalar.cmpi .ne (Scalar.extui (Scalar.cmpi .eq (BitVec.ofNat 32 (i 1).val) 0#32)) 0#32) = 1#1
/-- Over the 48 points it holds exactly at those divisible by 6. -/
theorem hcond0_0 : ∀ t : Fin cfg0.N, cond0_0 (grid0.coords t) ↔ t.val % 6 = 0 :=
  (by decide +kernel : ∀ t : Fin grid0.N, cond0_0 (grid0.coords t) ↔ t.val % 6 = 0)

/-! ## The staging memrefs -/

/-- One staging buffer of the totals' window, through which its contents are stated. -/
abbrev VO0_2 : View sig .tc .vmem S1x9x10 .f32 := (Memref.whole cc0_stg2_0 : Memref sig .tc .vmem S1x9x10 .f32).view
abbrev ms0_0 (t : Fin cfg0.N) : Memref sig .tc .vmem S1x128x768 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x9x128x768 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x9x10 .f32 := win0_2.stage (cfg0.slots t 2)
abbrev hs0_2 (t : Fin cfg0.N) : (ms0_2 t).IsWhole := hstage0_2 ((cfg0.slots t 2).cast nbuf0_2)

end Cert.KernelIdeal.Hand

end
-- ==== Proof.KernelIdeal.RunA.lean ====
/-
  The kernel body at the first row tile of an image, at any float instance.

  There the body overwrites the table of totals with zeros before anything else, so what it leaves does not depend
  on what the buffer held: it loads the tile's labels and features, and stores the zero table plus the tile's
  per-class sums. Stated on any whole staging memrefs holding the two input blocks: the body runs without a
  fault, gives the inputs back as they were, and leaves the totals' buffer with the pieces its stores wrote
  (the witness), whatever the buffer held before.
-/
import proofs.«412884_j48808008352330_1_alg».proof.Proof.KernelIdeal.Entry

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body where the reset branch is taken: the pieces its stores leave in the totals' buffer, with the run. -/
noncomputable def kernelRun0_A (c : Dev nD) (i : grid0.Coords)
    (arg2 : Memref sig .tc .vmem S1x128x768 .i32) (harg2 : arg2.IsWhole)
    (arg3 : Memref sig .tc .vmem S1x9x128x768 .f32) (harg3 : arg3.IsWhole)
    (arg4 : Memref sig .tc .vmem S1x9x10 .f32) (harg4 : arg4.IsWhole) (hc0 : cond0_0 i)
    (x0 : Vec F S1x128x768 .i32) (x1 : Vec F S1x9x128x768 .f32) :
    { L2 : List (View.Piece (Elt F) S1x9x10 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)) -∗ K ⟨⟩))
          ⊢ wp frame (wpE (defs₀ (F := F)) Variants.none c none) E (cc0_kernel i arg2 harg2 arg3 harg3 arg4 harg4) K } := by
  refine ⟨?_, fun E K => ?run⟩
  case run =>
    simp only [cc0_kernel_eq_skeleton]; unfold cc0_kernel_skel
    simp only [k0_part1_eq_skeleton, k0_part2_eq_skeleton]
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KernelIdeal.Hand

end
-- ==== Proof.KernelIdeal.RunB.lean ====
/-
  The kernel body at a later row tile of an image, at any float instance.

  There the reset branch is not taken: the body loads the running table of totals, adds the tile's per-class
  sums, and stores the result, so what it leaves depends on what the buffer held. Stated on any whole staging
  memrefs holding the two input blocks and the running table: the body runs without a fault, gives the inputs
  back as they were, and leaves the totals' buffer with the pieces its store wrote (the witness).
-/
import proofs.«412884_j48808008352330_1_alg».proof.Proof.KernelIdeal.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body where the reset branch is not taken: the pieces its store leaves in the totals' buffer, with the run. -/
noncomputable def kernelRun0_B (c : Dev nD) (i : grid0.Coords)
    (arg2 : Memref sig .tc .vmem S1x128x768 .i32) (harg2 : arg2.IsWhole)
    (arg3 : Memref sig .tc .vmem S1x9x128x768 .f32) (harg3 : arg3.IsWhole)
    (arg4 : Memref sig .tc .vmem S1x9x10 .f32) (harg4 : arg4.IsWhole) (hc0 : ¬cond0_0 i)
    (x0 : Vec F S1x128x768 .i32) (x1 : Vec F S1x9x128x768 .f32) (xo2 : Vec F S1x9x10 .f32) :
    { L2 : List (View.Piece (Elt F) S1x9x10 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)) -∗ K ⟨⟩))
          ⊢ wp frame (wpE (defs₀ (F := F)) Variants.none c none) E (cc0_kernel i arg2 harg2 arg3 harg3 arg4 harg4) K } := by
  refine ⟨?_, fun E K => ?run⟩
  case run =>
    simp only [cc0_kernel_eq_skeleton]; unfold cc0_kernel_skel
    simp only [k0_part1_eq_skeleton, k0_part2_eq_skeleton]
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KernelIdeal.Hand

end
-- ==== Proof.KernelIdeal.Frame.lean ====
/-
  The kernel program's frame, at any float instance: it runs to the end, faults nowhere, and leaves the label map
  and the feature maps as launched.

  The table of totals of image `b` is built over the six points `6 b .. 6 b + 5` of the grid: the first resets
  it and adds its row tile's sums, each later one adds its tile's sums to what the point before left, and only
  the sixth writes the table back to its array. So what the totals' staging buffer holds after a point is defined
  by recursion on the point; with that, each point's body is one of the two runs, the region's launch theorem
  applies, and the 67 host lines after the region run from the region's exit.
-/
import proofs.«412884_j48808008352330_1_alg».proof.Proof.KernelIdeal.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The stores of either case cover the whole 1 x 9 x 10 table. -/
theorem cover0_A_2 (c : Dev nD) (i : grid0.Coords) (arg2 : Memref sig .tc .vmem S1x128x768 .i32) (harg2 : arg2.IsWhole) (arg3 : Memref sig .tc .vmem S1x9x128x768 .f32) (harg3 : arg3.IsWhole) (arg4 : Memref sig .tc .vmem S1x9x10 .f32) (harg4 : arg4.IsWhole) (hc0 : cond0_0 i)
    (x0 : Vec F S1x128x768 .i32) (x1 : Vec F S1x9x128x768 .f32) (y : S1x9x10.Idx) :
    ∃ pc ∈ (kernelRun0_A c i arg2 harg2 arg3 harg3 arg4 harg4 hc0 x0 x1).1, y ∈ pc.1.set :=
  View.cover_of_tiledL (kernelRun0_A c i arg2 harg2 arg3 harg3 arg4 harg4 hc0 x0 x1).1 S1x9x10.size (by sl_kernel_rfl) y

/-- What the reset case leaves in the totals' buffer: its pieces read back. -/
def out0_A_2 (c : Dev nD) (i : grid0.Coords) (arg2 : Memref sig .tc .vmem S1x128x768 .i32) (harg2 : arg2.IsWhole) (arg3 : Memref sig .tc .vmem S1x9x128x768 .f32) (harg3 : arg3.IsWhole) (arg4 : Memref sig .tc .vmem S1x9x10 .f32) (harg4 : arg4.IsWhole) (hc0 : cond0_0 i)
    (x0 : Vec F S1x128x768 .i32) (x1 : Vec F S1x9x128x768 .f32) : Vec F S1x9x10 .f32 :=
  VO0_2.read (Elt F) (VO0_2.writes (Elt F) VO0_2.junk (kernelRun0_A c i arg2 harg2 arg3 harg3 arg4 harg4 hc0 x0 x1).1)

theorem cover0_B_2 (c : Dev nD) (i : grid0.Coords) (arg2 : Memref sig .tc .vmem S1x128x768 .i32) (harg2 : arg2.IsWhole) (arg3 : Memref sig .tc .vmem S1x9x128x768 .f32) (harg3 : arg3.IsWhole) (arg4 : Memref sig .tc .vmem S1x9x10 .f32) (harg4 : arg4.IsWhole) (hc0 : ¬cond0_0 i)
    (x0 : Vec F S1x128x768 .i32) (x1 : Vec F S1x9x128x768 .f32) (xo2 : Vec F S1x9x10 .f32) (y : S1x9x10.Idx) :
    ∃ pc ∈ (kernelRun0_B c i arg2 harg2 arg3 harg3 arg4 harg4 hc0 x0 x1 xo2).1, y ∈ pc.1.set :=
  View.cover_of_tiledL (kernelRun0_B c i arg2 harg2 arg3 harg3 arg4 harg4 hc0 x0 x1 xo2).1 S1x9x10.size (by sl_kernel_rfl) y

/-- What a later tile's case leaves in the totals' buffer over the running table `xo2`: its pieces read back. -/
def out0_B_2 (c : Dev nD) (i : grid0.Coords) (arg2 : Memref sig .tc .vmem S1x128x768 .i32) (harg2 : arg2.IsWhole) (arg3 : Memref sig .tc .vmem S1x9x128x768 .f32) (harg3 : arg3.IsWhole) (arg4 : Memref sig .tc .vmem S1x9x10 .f32) (harg4 : arg4.IsWhole) (hc0 : ¬cond0_0 i)
    (x0 : Vec F S1x128x768 .i32) (x1 : Vec F S1x9x128x768 .f32) (xo2 : Vec F S1x9x10 .f32) : Vec F S1x9x10 .f32 :=
  VO0_2.read (Elt F) (VO0_2.writes (Elt F) VO0_2.junk (kernelRun0_B c i arg2 harg2 arg3 harg3 arg4 harg4 hc0 x0 x1 xo2).1)

/-! ## What the totals' buffer holds after each point -/

/-- After point `n`: at a first tile (`n` divisible by 6) the reset case's table from the tile's blocks alone;
    at a later tile that case's table over what point `n - 1` left. -/
def outsAt0 (c : Dev nD) : (n : ℕ) → n < cfg0.N → Vec F S1x9x10 .f32
  | 0, hn => out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) ((hcond0_0 ⟨0, hn⟩).mpr (Nat.zero_mod _)) (iblk m c 0 ⟨0, hn⟩) (iblk m c 1 ⟨0, hn⟩)
  | n + 1, hn =>
    if h0 : (n + 1) % 6 = 0 then
      out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) ((hcond0_0 ⟨n + 1, hn⟩).mpr h0) (iblk m c 0 ⟨n + 1, hn⟩) (iblk m c 1 ⟨n + 1, hn⟩)
    else
      out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn))

theorem outsAt0_A (c : Dev nD) (t : Fin cfg0.N) (h0 : t.val % 6 = 0) :
    outsAt0 m c t.val t.isLt = out0_A_2 c (grid0.coords t) (ms0_0 t) (hs0_0 t) (ms0_1 t) (hs0_1 t) (ms0_2 t) (hs0_2 t) ((hcond0_0 t).mpr h0) (iblk m c 0 t) (iblk m c 1 t) := by
  obtain ⟨n, hn⟩ := t
  cases n with
  | zero => exact rfl
  | succ n => exact (dif_pos h0).trans rfl

theorem outsAt0_B (c : Dev nD) (t : Fin cfg0.N) (h0 : ¬t.val % 6 = 0) :
    outsAt0 m c t.val t.isLt = out0_B_2 c (grid0.coords t) (ms0_0 t) (hs0_0 t) (ms0_1 t) (hs0_1 t) (ms0_2 t) (hs0_2 t) (fun h => h0 ((hcond0_0 t).mp h)) (iblk m c 0 t) (iblk m c 1 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The proof data -/

/-- The arrays as the region finds them; after the body at point `t` each input's buffer at its block and the
    totals' at `outsAt0`; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- At a later tile the totals' staging buffer holds what the point before left: the point is not the first and
    the buffer was not written back in between (it is written back only after a sixth tile). -/
theorem before0_2_B (c : Dev nD) (t : Fin cfg0.N) (h0 : ¬t.val % 6 = 0) (d) :
    (dats m 0 c).before 2 t d = (outsAt0 m c (t.val - 1) (Nat.lt_of_le_of_lt (Nat.sub_le _ _) t.isLt)) := by
  have hN : t.val < 48 := lt_of_lt_of_eq t.isLt (show cfg0.N = 48 from N_0)
  rw [Dat.before_out_kept _ 2 rfl t (by omega) (Bool.eq_false_iff.mpr fun h => by have := (flush0_2 _).mp h; dsimp only at this; omega)
    (fun _ => rfl) (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t))

set_option maxHeartbeats 800000 in
/-- The body at any point: the inputs' buffers hold their blocks; the point is a first tile or a later one; at a
    later one the totals' buffer holds what the point before left; so that case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  have hN : t.val < 48 := lt_of_lt_of_eq t.isLt (show cfg0.N = 48 from N_0)
  by_cases h0 : t.val % 6 = 0
  · rw [outsAt0_A m c t h0]
    unfold out0_A_2
    iintro ⟨HΦ, Ho, ⟨%d0, H0⟩, ⟨%d1, H1⟩, ⟨%d2, H2⟩⟩
    iapply ((kernelRun0_A c (grid0.coords t) _ _ _ _ _ _ ((hcond0_0 t).mpr h0) (iblk m c 0 t) (iblk m c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_A_2 c _ _ _ _ _ _ _ _ _ _)
  · rw [outsAt0_B m c t h0]
    simp only [before0_2_B m c t h0]
    unfold out0_B_2
    iintro ⟨HΦ, Ho, ⟨%d0, H0⟩, ⟨%d1, H1⟩, ⟨%d2, H2⟩⟩
    iapply ((kernelRun0_B c (grid0.coords t) _ _ _ _ _ _ (fun h => h0 ((hcond0_0 t).mp h)) (iblk m c 0 t) (iblk m c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_B_2 c _ _ _ _ _ _ _ _ _ _ _)

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has each of the three arrays at what
    the proof data compute and every other unscoped buffer at what the later lines compute from the region's exit. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The frame claim's statement at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Hand

end
-- ==== Proof.KernelIdeal.Pieces.lean ====
/-
  What each case of the kernel body leaves in the totals' buffer, as a value, at any float instance.

  Both cases end in one store of the whole 1 x 9 x 10 table whose payload is the body's arithmetic applied to the
  tile's labels, the tile's features and the table the body loaded just before: the running table at a later
  tile, and at a first tile the zero table the body itself stored a moment earlier. So both are one step,
  `tileStep`, of the running table.
-/
import proofs.«412884_j48808008352330_1_alg».proof.Proof.KernelIdeal.Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- One tile's step: the table `xo` plus, for each class, the tile's per-channel sums over the pixels of that class
    (the body's arithmetic, as the body spells it). -/
def tileStep (x0 : Vec F S1x128x768 .i32) (x1 : Vec F S1x9x128x768 .f32) (xo : Vec F S1x9x10 .f32) : Vec F S1x9x10 .f32 :=
  k0_pay1 (k0_pay3 (F := F) x0) (k0_pay4 x1) (k0_pay5 x0 x1) (k0_pay6 x0 x1) (k0_pay8 (k0_pay7 x0 x1))
    (k0_pay9 (k0_pay3 (F := F) x0) (k0_pay4 x1)) (k0_pay10 (k0_pay3 (F := F) x0) (k0_pay4 x1)) (k0_pay11 (k0_pay3 (F := F) x0) (k0_pay4 x1))
    (k0_pay12 (k0_pay3 (F := F) x0) (k0_pay4 x1)) (k0_pay13 (F := F) (k0_pay3 (F := F) x0)) xo

/-- A later tile leaves the running table stepped by the tile. -/
theorem out_B (c : Dev nD) (i : grid0.Coords) (a2 : Memref sig .tc .vmem S1x128x768 .i32) (h2 : a2.IsWhole)
    (a3 : Memref sig .tc .vmem S1x9x128x768 .f32) (h3 : a3.IsWhole) (a4 : Memref sig .tc .vmem S1x9x10 .f32) (h4 : a4.IsWhole)
    (hc : ¬cond0_0 i) (x0 : Vec F S1x128x768 .i32) (x1 : Vec F S1x9x128x768 .f32) (xo : Vec F S1x9x10 .f32) :
    out0_B_2 c i a2 h2 a3 h3 a4 h4 hc x0 x1 xo = tileStep x0 x1 xo := by
  unfold out0_B_2
  rw [View.read_writes_eq_canon _ _ _ (cover0_B_2 c i a2 h2 a3 h3 a4 h4 hc x0 x1 xo)]
  unfold kernelRun0_B
  dsimp only
  sl_unfold_words
  rw [View.canon_unit_zero hz3]
  unfold tileStep
  simp only [View.readAt_eq_ld, h2.read_unread, h3.read_unread, h4.read_unread, View.ld_unit_zero (S := S1x128x768) hz3,
    View.ld_unit_zero (S := S1x9x128x768) hz4, View.ld_unit_zero (S := S1x9x10) hz3]

/-- A first tile leaves the zero table stepped by the tile. -/
theorem out_A (c : Dev nD) (i : grid0.Coords) (a2 : Memref sig .tc .vmem S1x128x768 .i32) (h2 : a2.IsWhole)
    (a3 : Memref sig .tc .vmem S1x9x128x768 .f32) (h3 : a3.IsWhole) (a4 : Memref sig .tc .vmem S1x9x10 .f32) (h4 : a4.IsWhole)
    (hc : cond0_0 i) (x0 : Vec F S1x128x768 .i32) (x1 : Vec F S1x9x128x768 .f32) :
    out0_A_2 c i a2 h2 a3 h3 a4 h4 hc x0 x1 = tileStep x0 x1 (k0_pay2 (F := F)) := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S1x9x10) hz3]
  unfold tileStep
  simp only [View.readAt_eq_ld, h2.read_unread, h3.read_unread, View.ld_unit_zero (S := S1x128x768) hz3,
    View.ld_unit_zero (S := S1x9x128x768) hz4, View.ld_unit_zero (S := S1x9x10) hz3, View.readCov_unit_zero (S := S1x9x10) _ hz3]

end Cert.KernelIdeal.Hand

end
-- ==== Proof.KernelIdeal.Payload.lean ====
/-
  The body's arithmetic for one row tile, read at an entry, at the ideal instance.

  A row tile is 128 rows of 768 pixels: its labels `v3 : [1, 128, 768]` and its nine feature channels
  `v5 : [1, 9, 128, 768]`. The body drops the unit axes, appends to the nine channels a tenth that is constantly one,
  and for each class `k = 0 .. 8` multiplies every channel by the indicator "this pixel's label is `k`" and sums over
  the 768 columns and then over the 128 rows. The nine rows of ten sums are stacked into a `[9, 10]` table and added to
  the table found in the output block. Here: entry `(k, c)` of the new table is the old entry plus
  `∑ r, ∑ w, (channel c of pixel (r, w), or 1 for c = 9) * [label of (r, w) = k]` (`tile_update`), and the table the
  first row tile of an image starts from is zero everywhere (`zero_fill`).
-/
import proofs.«412884_j48808008352330_1_alg».proof.Proof.Gen.KernelIdeal.Skeleton
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.ValueIdx

/-! ## The indicator of a class, as an extended real -/

/-- The word comparison "`x` equals `kk`" is one bit; widened to 32 bits and read as a signed integer it is 1 or 0, and
    the conversion to a float is exact: the extended real 1 where the words agree and 0 where they differ. -/
theorem onehot_word (x kk : BitVec 32) :
    (FloatOps.sitofp (F := Ideal) .f32 ((IntOp.cmpi .eq x kk).setWidth 32) : EReal) = if x = kk then 1 else 0 := by
  by_cases h : x = kk
  · subst h
    rw [if_pos rfl]
    have e : IntOp.cmpi .eq x x = 1#1 := by simp [IntOp.cmpi]
    rw [e]
    show (((((1#1 : BitVec 1).setWidth 32).toInt : ℝ)) : EReal) = 1
    norm_num
  · rw [if_neg h]
    have hb : (x == kk) = false := beq_eq_false_iff_ne.2 h
    have e : IntOp.cmpi .eq x kk = 0#1 := by simp [IntOp.cmpi, hb]
    rw [e]
    show (((((0#1 : BitVec 1).setWidth 32).toInt : ℝ)) : EReal) = 0
    norm_num

/-! ## The two sums: over the columns, then over the rows -/

/-- Channel `c` with row `r` inserted on the second axis and column `w` on the third is the index `(c, r, w)`. -/
theorem lift2 (c : Fin 10) (r : Fin 128) (w : Fin 768) :
    reduces_S10x128x768_S10x128.lift (reduces_S10x128_S10.lift (ix1 c) r) w = ix3 c r w := by
  funext a
  match a with
  | ⟨0, _⟩ => rfl
  | ⟨1, _⟩ => rfl
  | ⟨2, _⟩ => rfl

/-- Summing a `[10, 128, 768]` array over its last axis and the result over its last axis gives, at channel `c`, the
    double sum over rows and columns of the array at `(c, r, w)`: at the ideal instance each reduction is an exact sum
    over the dropped axis. -/
theorem sum2 (x : FVec Ideal S10x128x768 .f32) (c : Fin 10) :
    multiReduction .add [1] S10 (multiReduction .add [2] S10x128 x 0x00000000#32 reduces_S10x128x768_S10x128 (.inl rfl) rfl)
        0x00000000#32 reduces_S10x128_S10 (.inl rfl) rfl (ix1 c)
      = ∑ r : Fin 128, ∑ w : Fin 768, x (ix3 c r w) :=
  (Ideal.multiReduction_add_single _ _ reduces_S10x128_S10 _ _ (ix1 c)).trans
    (Finset.sum_congr rfl fun r _ =>
      (Ideal.multiReduction_add_single _ _ reduces_S10x128x768_S10x128 _ _ _).trans
        (Finset.sum_congr rfl fun w _ => congrArg x (lift2 c r w)))

/-! ## One class's row of ten sums -/

/-- The row of class word `kk`, over any label tile `v4` and any ten-channel tile `v8`: the indicator of "label is `kk`"
    is broadcast over the ten channels and multiplied in, and the product summed over columns and rows; entry `c` of
    the row is `∑ r, ∑ w, v8 (c, r, w) * [v4 (r, w) = kk]`. -/
theorem row_apply (v4 : IVec S128x768 32) (v8 : FVec Ideal S10x128x768 .f32) (kk : BitVec 32) (c : Fin 10) :
    (shapeCast S1x10 (multiReduction .add [1] S10 (multiReduction .add [2] S10x128
        (mulf v8 (broadcastTo S10x128x768 (shapeCast S1x128x768
          (sitofp .f32 (extui 32 (cmpi .eq v4 (broadcast S128x768 kk)) natLt_1_32) : FVec Ideal S128x768 .f32)
          shapeCasts_S128x768_S1x128x768) broadcasts_S1x128x768_S10x128x768))
        0x00000000#32 reduces_S10x128x768_S10x128 (.inl rfl) rfl) 0x00000000#32 reduces_S10x128_S10 (.inl rfl) rfl)
      shapeCasts_S10_S1x10 : FVec Ideal S1x10 .f32) (ix2 0 c)
      = ∑ r : Fin 128, ∑ w : Fin 768, v8 (ix3 c r w) * (if v4 (ix2 r w) = kk then 1 else 0) := by
  -- the unit axis in front of the ten sums carries no information
  refine (shapeCast_a_1a_apply _ shapeCasts_S10_S1x10 0 c).trans ?_
  refine (sum2 _ c).trans ?_
  refine Finset.sum_congr rfl fun r _ => Finset.sum_congr rfl fun w _ => ?_
  -- one term: the channel's value times the indicator, which does not depend on the channel
  refine congrArg (v8 (ix3 c r w) * ·) ?_
  refine (broadcastTo_apply _ broadcasts_S1x128x768_S10x128x768 (ix3 c r w) (ix3 (0 : Fin 1) r w) fun a => ?_).trans ?_
  · match a with
    | ⟨0, _⟩ => rfl
    | ⟨1, _⟩ => rfl
    | ⟨2, _⟩ => rfl
  refine (shapeCast_ab_1ab_apply _ shapeCasts_S128x768_S1x128x768 0 r w).trans ?_
  exact onehot_word (v4 (ix2 r w)) kk

/-! ## The tile's labels and its ten channels, by coordinates -/

/-- The label tile without its unit axis: `(r, w)` reads `(0, r, w)`. -/
theorem pay3_apply (v3 : Vec Ideal S1x128x768 .i32) (r : Fin 128) (w : Fin 768) :
    k0_pay3 (F := Ideal) v3 (ix2 r w) = v3 (ix3 0 r w) :=
  shapeCast_1ab_ab_apply v3 shapeCasts_S1x128x768_S128x768 r w

/-- The ten-channel tile: channels `0 .. 8` are the feature tile's (without its unit axis), channel 9 is constantly
    one (the word `0x3F800000` is the real 1). -/
theorem pay4_apply (v5 : Vec Ideal S1x9x128x768 .f32) (c : Fin 10) (r : Fin 128) (w : Fin 768) :
    k0_pay4 v5 (ix3 c r w) = if hc : c.val < 9 then v5 (ix4 0 ⟨c.val, hc⟩ r w) else 1 := by
  unfold k0_pay4
  by_cases hc : c.val < 9
  · -- a channel below nine falls in the first piece of the concatenation, at the same coordinates
    rw [dif_pos hc]
    refine (concatenate_pair_apply_left 0 _ _ concatenates_S9x128x768_S1x128x768_S10x128x768_d0 (ix3 c r w) rfl
      (ix3 ⟨c.val, hc⟩ r w) fun b => ?_).trans ?_
    · match b with
      | ⟨0, _⟩ => rfl
      | ⟨1, _⟩ => rfl
      | ⟨2, _⟩ => rfl
    exact shapeCast_1abc_abc_apply v5 shapeCasts_S1x9x128x768_S9x128x768 ⟨c.val, hc⟩ r w
  · -- channel nine is the second piece's only channel: the splat of one
    rw [dif_neg hc]
    refine (concatenate_pair_apply_right 0 _ _ concatenates_S9x128x768_S1x128x768_S10x128x768_d0 (ix3 c r w) rfl rfl
      (ix3 (0 : Fin 1) r w) (fun b hb => ?_) ?_).trans ?_
    · match b with
      | ⟨0, _⟩ => exact absurd rfl hb
      | ⟨1, _⟩ => rfl
      | ⟨2, _⟩ => rfl
    · show 0 + 9 = c.val
      have := c.isLt
      omega
    exact Ideal.ofBits_one_f32

/-- The double sum over the tile, with the ten-channel tile and the label tile read through the blocks they were
    made from. -/
theorem sum_payload (v3 : Vec Ideal S1x128x768 .i32) (v5 : Vec Ideal S1x9x128x768 .f32) (kk : BitVec 32) (c : Fin 10) :
    (∑ r : Fin 128, ∑ w : Fin 768, k0_pay4 v5 (ix3 c r w) * (if k0_pay3 (F := Ideal) v3 (ix2 r w) = kk then 1 else 0))
      = ∑ r : Fin 128, ∑ w : Fin 768,
          (if hc : c.val < 9 then v5 (ix4 0 ⟨c.val, hc⟩ r w) else 1) * (if v3 (ix3 0 r w) = kk then 1 else 0) :=
  Finset.sum_congr rfl fun r _ => Finset.sum_congr rfl fun w _ => by rw [pay4_apply, pay3_apply]

/-! ## Nine rows stacked -/

/-- Nine `[1, 10]` rows concatenated along the first axis: row `k` of the `[9, 10]` table is the `k`-th piece. -/
theorem concat9_apply (f : Fin 9 → FVec Ideal S1x10 .f32) (k : Fin 9) (c : Fin 10) :
    concatenate S9x10 0 [⟨S1x10, f 0⟩, ⟨S1x10, f 1⟩, ⟨S1x10, f 2⟩, ⟨S1x10, f 3⟩, ⟨S1x10, f 4⟩, ⟨S1x10, f 5⟩, ⟨S1x10, f 6⟩,
        ⟨S1x10, f 7⟩, ⟨S1x10, f 8⟩] concatenates_S1x10_S1x10_S1x10_S1x10_S1x10_S1x10_S1x10_S1x10_S1x10_S9x10_d0 (ix2 k c)
      = f k (ix2 0 c) := by
  have h' : Shape.Concatenates ((List.ofFn fun n : Fin 9 => (⟨S1x10, f n⟩ : (s : Shape) × (s.Idx → EReal))).map (·.1)) S9x10 0 :=
    concatenates_S1x10_S1x10_S1x10_S1x10_S1x10_S1x10_S1x10_S1x10_S1x10_S9x10_d0
  exact concatenate_ofFn_unit_apply (t := S9x10) (s₁ := S1x10) 0 f h' rfl rfl (ix2 k c) k rfl (ix2 0 c) fun b hb =>
    match b with
    | ⟨0, _⟩ => absurd rfl hb
    | ⟨1, _⟩ => rfl

/-! ## The update of the table, and the table it starts from -/

/-- **One row tile's update, at an entry.** Entry `(k, c)` of the table the body stores is the entry it loaded plus the
    tile's sum, over its 128 rows and 768 columns, of channel `c` of the pixel (one, for `c = 9`) where the pixel's
    label is `k`. -/
theorem tile_update (v3 : Vec Ideal S1x128x768 .i32) (v5 : Vec Ideal S1x9x128x768 .f32) (v100 : Vec Ideal S1x9x10 .f32) (k : Fin 9) (c : Fin 10) :
    k0_pay1 (F := Ideal) (k0_pay3 (F := Ideal) v3) (k0_pay4 v5) (k0_pay5 v3 v5) (k0_pay6 v3 v5) (k0_pay8 (k0_pay7 v3 v5))
        (k0_pay9 (k0_pay3 (F := Ideal) v3) (k0_pay4 v5)) (k0_pay10 (k0_pay3 (F := Ideal) v3) (k0_pay4 v5)) (k0_pay11 (k0_pay3 (F := Ideal) v3) (k0_pay4 v5))
        (k0_pay12 (k0_pay3 (F := Ideal) v3) (k0_pay4 v5)) (k0_pay13 (F := Ideal) (k0_pay3 (F := Ideal) v3)) v100 (ix3 0 k c)
      = v100 (ix3 0 k c) + ∑ r : Fin 128, ∑ w : Fin 768,
          (if hc : c.val < 9 then v5 (ix4 0 ⟨c.val, hc⟩ r w) else 1) * (if v3 (ix3 0 r w) = BitVec.ofNat 32 k.val then 1 else 0) := by
  unfold k0_pay1
  -- the stored table is the loaded one plus the stack of rows, both seen without the unit axis
  refine (shapeCast_ab_1ab_apply _ shapeCasts_S9x10_S1x9x10 0 k c).trans ?_
  refine (addf_apply _ _ _).trans ?_
  refine congrArg₂ (· + ·) (shapeCast_1ab_ab_apply v100 shapeCasts_S1x9x10_S9x10 k c) ?_
  -- row k of the stack is class k's row
  refine (concat9_apply ![k0_pay5 v3 v5, k0_pay6 v3 v5, k0_pay8 (k0_pay7 v3 v5), k0_pay9 (k0_pay3 v3) (k0_pay4 v5),
    k0_pay10 (k0_pay3 v3) (k0_pay4 v5), k0_pay11 (k0_pay3 v3) (k0_pay4 v5), k0_pay12 (k0_pay3 v3) (k0_pay4 v5), _, _] k c).trans ?_
  refine Eq.trans ?_ (sum_payload v3 v5 (BitVec.ofNat 32 k.val) c)
  -- each class's row is the same term at its own class word
  match k with
  | ⟨0, _⟩ => exact row_apply (k0_pay3 v3) (k0_pay4 v5) 0#32 c
  | ⟨1, _⟩ => exact row_apply (k0_pay3 v3) (k0_pay4 v5) 1#32 c
  | ⟨2, _⟩ => exact row_apply (k0_pay3 v3) (k0_pay4 v5) 2#32 c
  | ⟨3, _⟩ => exact row_apply (k0_pay3 v3) (k0_pay4 v5) 3#32 c
  | ⟨4, _⟩ => exact row_apply (k0_pay3 v3) (k0_pay4 v5) 4#32 c
  | ⟨5, _⟩ => exact row_apply (k0_pay3 v3) (k0_pay4 v5) 5#32 c
  | ⟨6, _⟩ => exact row_apply (k0_pay3 v3) (k0_pay4 v5) 6#32 c
  | ⟨7, _⟩ => exact row_apply (k0_pay3 v3) (k0_pay4 v5) 7#32 c
  | ⟨8, _⟩ => exact row_apply (k0_pay3 v3) (k0_pay4 v5) 8#32 c

/-- The table the first row tile of an image starts from is zero at every entry (the word `0x00000000` is the
    real 0). -/
theorem zero_fill (i : S1x9x10.Idx) : k0_pay2 (F := Ideal) i = 0 := Ideal.ofBits_zero_f32

end Cert.KernelIdeal.Hand

end
-- ==== Proof.Spec.lean ====
/-
  What the pallas_call computes, stated once over literal shapes at the ideal instance.

  For image `b`, class `k` and channel `c`, the total over all 768 x 768 pixels of the channel's value times the
  indicator "this pixel's label is `k`". A tenth channel that is constantly one rides along, so its total is the
  number of pixels of class `k` in image `b`. The kernel reaches the total six row tiles of 128 rows at a time;
  the reference reaches it as a segment sum over the flattened pixels keyed by `9 b + label`.
-/
import Idealize.ShloMosaic.PureOps.Ideal
import Idealize.ShloMosaic.Lib.ValueIdx

noncomputable section

open scoped BigOperators

namespace Cert.Spec

open Idealize.ShloMosaic Idealize.ShloMosaic.ValueIdx

/-- The label map, the feature maps, and the table of totals (nine channels and the count). -/
abbrev SLabels : Shape := ⟨3, ![8, 768, 768]⟩
abbrev SFeats : Shape := ⟨4, ![8, 9, 768, 768]⟩
abbrev STotals : Shape := ⟨3, ![8, 9, 10]⟩

/-- One where pixel `(h, w)` of image `b` carries label `k`, zero elsewhere. -/
def hit (labels : IVec SLabels 32) (b : Fin 8) (k : Fin 9) (h w : Fin 768) : EReal :=
  if labels (ix3 b h w) = BitVec.ofNat 32 k.val then 1 else 0

/-- Channel `c` of pixel `(h, w)` of image `b`; the tenth channel is constantly one. -/
def aug (x : FVec Ideal SFeats .f32) (b : Fin 8) (c : Fin 10) (h w : Fin 768) : EReal :=
  if hc : c.val < 9 then x (ix4 b ⟨c.val, hc⟩ h w) else 1

/-- Row `r` of row tile `j` of an image: tiles are 128 rows tall and an image has six of them. -/
def tileRow (j : Fin 6) (r : Fin 128) : Fin 768 := ⟨128 * j.val + r.val, by omega⟩

/-- One row tile's contribution to the total of image `b`, class `k`, channel `c`. -/
def tileTotal (labels : IVec SLabels 32) (x : FVec Ideal SFeats .f32) (b : Fin 8) (j : Fin 6) (k : Fin 9) (c : Fin 10) : EReal :=
  ∑ r : Fin 128, ∑ w : Fin 768, aug x b c (tileRow j r) w * hit labels b k (tileRow j r) w

/-- The table of totals: entry `(b, k, c)` is the sum over every pixel of image `b`. -/
def totals (labels : IVec SLabels 32) (x : FVec Ideal SFeats .f32) : FVec Ideal STotals .f32 :=
  fun i => ∑ h : Fin 768, ∑ w : Fin 768, aug x (i 0) (i 2) h w * hit labels (i 0) (i 1) h w

/-- Every label lies in the label range `0 .. 8` (read signed). -/
def LabelsInRange (labels : IVec SLabels 32) : Prop :=
  ∀ i : SLabels.Idx, 0 ≤ (labels i).toInt ∧ (labels i).toInt < 9

end Cert.Spec

end
-- ==== Proof.SpecLaws.lean ====
/-
  Six row tiles of 128 rows make one image of 768 rows: row `h` of an image is row `h % 128` of tile `h / 128`,
  so a sum over the 768 rows is a sum over the six tiles of a sum over each tile's 128 rows. Hence the total of an
  image is the sum of its six tiles' totals. Also the two bookkeeping facts for adding the tiles one at a time:
  the tiles up to and including `n` are the tiles before `n` and tile `n`, and the tiles up to `5` are all of them.
-/
import proofs.«412884_j48808008352330_1_alg».proof.Proof.Spec
import Mathlib.Algebra.BigOperators.Group.Finset.Basic
import Mathlib.Data.Fintype.BigOperators

noncomputable section

open scoped BigOperators

namespace Cert.Spec

open Idealize.ShloMosaic Idealize.ShloMosaic.ValueIdx

/-- Pairs (tile, row in the tile) are the rows of an image: `(j, r) ↦ 128 j + r`, back by quotient and remainder. -/
def tileEquiv : Fin 6 × Fin 128 ≃ Fin 768 where
  toFun p := tileRow p.1 p.2
  invFun h := (⟨h.val / 128, by omega⟩, ⟨h.val % 128, by omega⟩)
  left_inv := by
    rintro ⟨j, r⟩
    apply Prod.ext
    · apply Fin.ext
      show (128 * j.val + r.val) / 128 = j.val
      omega
    · apply Fin.ext
      show (128 * j.val + r.val) % 128 = r.val
      omega
  right_inv := by
    intro h
    apply Fin.ext
    show 128 * (h.val / 128) + h.val % 128 = h.val
    omega

@[simp] theorem tileEquiv_apply (j : Fin 6) (r : Fin 128) : tileEquiv (j, r) = tileRow j r := rfl

/-- A sum over the rows of an image, tile by tile. -/
theorem sum_rows_eq_tiles (g : Fin 768 → EReal) :
    ∑ h : Fin 768, g h = ∑ j : Fin 6, ∑ r : Fin 128, g (tileRow j r) := by
  rw [← Fintype.sum_prod_type' (fun (j : Fin 6) (r : Fin 128) => g (tileRow j r))]
  exact (Fintype.sum_equiv tileEquiv (fun p => g (tileRow p.1 p.2)) g (fun _ => rfl)).symm

/-- The total of image `b`, class `k`, channel `c` is the sum of the six row tiles' totals. -/
theorem totals_eq_tiles (labels : IVec SLabels 32) (x : FVec Ideal SFeats .f32) (b : Fin 8) (k : Fin 9) (c : Fin 10) :
    totals labels x (ix3 b k c) = ∑ j : Fin 6, tileTotal labels x b j k c := by
  show ∑ h : Fin 768, ∑ w : Fin 768, aug x b c h w * hit labels b k h w = _
  rw [sum_rows_eq_tiles (fun h => ∑ w : Fin 768, aug x b c h w * hit labels b k h w)]
  rfl

/-- The tiles up to and including `n` are the tiles before `n` together with tile `n`. -/
theorem sum_range_succ_tiles (f : Fin 6 → EReal) (n : ℕ) (hn : n < 6) :
    ∑ j ∈ Finset.univ.filter (fun j : Fin 6 => j.val ≤ n), f j
      = (∑ j ∈ Finset.univ.filter (fun j : Fin 6 => j.val < n), f j) + f ⟨n, hn⟩ := by
  have hset : Finset.univ.filter (fun j : Fin 6 => j.val ≤ n)
      = insert (⟨n, hn⟩ : Fin 6) (Finset.univ.filter (fun j : Fin 6 => j.val < n)) := by
    ext j
    simp only [Finset.mem_filter, Finset.mem_univ, true_and, Finset.mem_insert, Fin.ext_iff]
    omega
  have hnot : (⟨n, hn⟩ : Fin 6) ∉ Finset.univ.filter (fun j : Fin 6 => j.val < n) := by
    simp only [Finset.mem_filter, Finset.mem_univ, true_and]
    omega
  rw [hset, Finset.sum_insert hnot, add_comm]

/-- Every tile index is at most `5`. -/
theorem sum_all_tiles (f : Fin 6 → EReal) :
    ∑ j ∈ Finset.univ.filter (fun j : Fin 6 => j.val ≤ 5), f j = ∑ j : Fin 6, f j := by
  have hset : Finset.univ.filter (fun j : Fin 6 => j.val ≤ 5) = Finset.univ := by
    ext j
    simp only [Finset.mem_filter, Finset.mem_univ, true_and, iff_true]
    omega
  rw [hset]

end Cert.Spec

end
-- ==== Proof.KernelIdeal.Value.lean ====
/-
  The value of the pallas_call at the ideal instance: its result array is the table of totals.

  A point `t = 6 b + j` of the grid sees rows `128 j .. 128 j + 127` of image `b`. One step of the body adds tile
  `j`'s contribution to every entry of the running table, so after point `6 b + j` the table holds the
  contributions of tiles `0 .. j` (induction on the point; the reset makes tile 0 start from zero), after the sixth
  tile all of image `b`, and that table is what the point writes back into block `b` of the result array. Every
  entry of the array lies in such a block, so the array ends as the totals.
-/
import proofs.«412884_j48808008352330_1_alg».proof.Proof.KernelIdeal.Pieces
import proofs.«412884_j48808008352330_1_alg».proof.Proof.KernelIdeal.Payload
import proofs.«412884_j48808008352330_1_alg».proof.Proof.SpecLaws
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.SL.Sem
open Idealize.ShloMosaic.Pipeline (Dat)

open Idealize.ShloMosaic.ValueIdx Cert.Spec

variable (m : (ℓ : Loc nD τ sig) → Buf (Elt Ideal) ℓ) (ρ : Dev nD → PrngReg)

/-- The two argument arrays of a core at launch, and a point's two input blocks, at their literal types. -/
abbrev labelsOf (c : Dev nD) : IVec SLabels 32 := m ((c : Thread nD τ).loc main_arg0)
abbrev featsOf (c : Dev nD) : FVec Ideal SFeats .f32 := m ((c : Thread nD τ).loc main_arg1)
abbrev lblk (c : Dev nD) (t : Fin cfg0.N) : Vec Ideal S1x128x768 .i32 := iblk m c 0 t
abbrev fblk (c : Dev nD) (t : Fin cfg0.N) : Vec Ideal S1x9x128x768 .f32 := iblk m c 1 t

/-- Where the windows sit at point `t = 6 b + j`: the labels' at image `b`, row tile `j`; the features' at image
    `b`, all channels, row tile `j`; the totals' at image `b`. Decided over the 48 points. -/
theorem idx_facts : ∀ t : Fin cfg0.N,
    win0_0.index t (0 : Fin 3) = t.val / 6 ∧ win0_0.index t (1 : Fin 3) = t.val % 6 ∧ win0_0.index t (2 : Fin 3) = 0
    ∧ win0_1.index t (0 : Fin 4) = t.val / 6 ∧ win0_1.index t (1 : Fin 4) = 0 ∧ win0_1.index t (2 : Fin 4) = t.val % 6 ∧ win0_1.index t (3 : Fin 4) = 0
    ∧ win0_2.index t (0 : Fin 3) = t.val / 6 ∧ win0_2.index t (1 : Fin 3) = 0 ∧ win0_2.index t (2 : Fin 3) = 0 :=
  (by decide +kernel : ∀ t : Fin grid0.N, _)

/-- A label of the tile is the label map's entry at image `b`, row `128 j + r`. -/
theorem lblk_apply (c : Dev nD) (t : Fin cfg0.N) (b : Fin 8) (j : Fin 6) (ht : t.val = 6 * b.val + j.val) (r : Fin 128) (w : Fin 768) :
    lblk m c t (ix3 0 r w) = labelsOf m c (ix3 b (tileRow j r) w) := by
  obtain ⟨e0, e1, e2, -⟩ := idx_facts t
  have hb := b.isLt; have hj := j.isLt
  show V m c main_arg0 (((cfg0.win 0).blk t).view.emb (ix3 0 r w)) = m ((c : Thread nD τ).loc main_arg0) (ix3 b (tileRow j r) w)
  rw [V_main_arg0]
  congr 1
  funext a; apply Fin.ext
  match a with
  | ⟨0, _⟩ => show win0_0.index t (0 : Fin 3) * 1 + 1 * 0 = b.val; omega
  | ⟨1, _⟩ => show win0_0.index t (1 : Fin 3) * 128 + 1 * r.val = 128 * j.val + r.val; omega
  | ⟨2, _⟩ => show win0_0.index t (2 : Fin 3) * 768 + 1 * w.val = w.val; omega

/-- A feature of the tile is the feature maps' entry at image `b`, the same channel, row `128 j + r`. -/
theorem fblk_apply (c : Dev nD) (t : Fin cfg0.N) (b : Fin 8) (j : Fin 6) (ht : t.val = 6 * b.val + j.val) (ch : Fin 9) (r : Fin 128) (w : Fin 768) :
    fblk m c t (ix4 0 ch r w) = featsOf m c (ix4 b ch (tileRow j r) w) := by
  obtain ⟨-, -, -, e0, e1, e2, e3, -⟩ := idx_facts t
  have hb := b.isLt; have hj := j.isLt
  show V m c main_arg1 (((cfg0.win 1).blk t).view.emb (ix4 0 ch r w)) = m ((c : Thread nD τ).loc main_arg1) (ix4 b ch (tileRow j r) w)
  rw [V_main_arg1]
  congr 1
  funext a; apply Fin.ext
  match a with
  | ⟨0, _⟩ => show win0_1.index t (0 : Fin 4) * 1 + 1 * 0 = b.val; omega
  | ⟨1, _⟩ => show win0_1.index t (1 : Fin 4) * 9 + 1 * ch.val = ch.val; omega
  | ⟨2, _⟩ => show win0_1.index t (2 : Fin 4) * 128 + 1 * r.val = 128 * j.val + r.val; omega
  | ⟨3, _⟩ => show win0_1.index t (3 : Fin 4) * 768 + 1 * w.val = w.val; omega

/-- One step of the running table at point `6 b + j`, read at an entry: the entry plus tile `j`'s contribution. -/
theorem tileStep_apply (c : Dev nD) (t : Fin cfg0.N) (b : Fin 8) (j : Fin 6) (ht : t.val = 6 * b.val + j.val)
    (xo : Vec Ideal S1x9x10 .f32) (k : Fin 9) (ch : Fin 10) :
    tileStep (F := Ideal) (lblk m c t) (fblk m c t) xo (ix3 0 k ch)
      = xo (ix3 0 k ch) + tileTotal (labelsOf m c) (featsOf m c) b j k ch := by
  unfold tileStep
  refine (tile_update (lblk m c t) (fblk m c t) xo k ch).trans ?_
  refine congrArg (fun z => xo (ix3 0 k ch) + z) ?_
  unfold tileTotal
  refine Finset.sum_congr rfl fun r _ => Finset.sum_congr rfl fun w _ => ?_
  have hf : (if hc : ch.val < 9 then fblk m c t (ix4 0 ⟨ch.val, hc⟩ r w) else (1 : EReal)) = aug (featsOf m c) b ch (tileRow j r) w := by
    unfold aug
    by_cases hc : ch.val < 9
    · rw [dif_pos hc, dif_pos hc]; exact fblk_apply m c t b j ht ⟨ch.val, hc⟩ r w
    · rw [dif_neg hc, dif_neg hc]
  have hh : (if lblk m c t (ix3 0 r w) = BitVec.ofNat 32 k.val then (1 : EReal) else 0) = hit (labelsOf m c) b k (tileRow j r) w := by
    unfold hit
    rw [lblk_apply m c t b j ht r w]
  exact congrArg₂ (fun a b : EReal => a * b) hf hh

/-- At a first tile the table is that tile's contribution alone. -/
theorem outsAt_first (c : Dev nD) (t : Fin cfg0.N) (h0 : t.val % 6 = 0) (b : Fin 8) (ht : t.val = 6 * b.val) (k : Fin 9) (ch : Fin 10) :
    outsAt0 m c t.val t.isLt (ix3 0 k ch) = tileTotal (labelsOf m c) (featsOf m c) b 0 k ch := by
  rw [outsAt0_A m c t h0]
  refine (congrFun (out_A (F := Ideal) c (grid0.coords t) (ms0_0 t) (hs0_0 t) (ms0_1 t) (hs0_1 t) (ms0_2 t) (hs0_2 t)
    ((hcond0_0 t).mpr h0) (lblk m c t) (fblk m c t)) (ix3 0 k ch)).trans ?_
  refine (tileStep_apply m c t b 0 (by simpa using ht) (k0_pay2 (F := Ideal)) k ch).trans ?_
  rw [zero_fill, zero_add]

/-- THE RUNNING TABLE. After point `6 b + j` the totals' buffer holds, entry by entry, the contributions of the
    row tiles `0 .. j` of image `b`: by induction on the point. -/
theorem outsAt_eq (c : Dev nD) : ∀ (n : ℕ) (h : n < cfg0.N) (b : Fin 8) (j : Fin 6), n = 6 * b.val + j.val → ∀ (k : Fin 9) (ch : Fin 10),
    outsAt0 m c n h (ix3 0 k ch)
      = ∑ j' ∈ Finset.univ.filter (fun j' : Fin 6 => j'.val ≤ j.val), tileTotal (labelsOf m c) (featsOf m c) b j' k ch := by
  intro n
  induction n with
  | zero =>
    intro h b j hn k ch
    have hj : j = 0 := Fin.ext (by have := j.isLt; show j.val = 0; omega)
    subst hj
    have hs : Finset.univ.filter (fun j' : Fin 6 => j'.val ≤ (0 : Fin 6).val) = {0} := by decide
    rw [hs, Finset.sum_singleton]
    exact outsAt_first m c ⟨0, h⟩ rfl b (by show 0 = 6 * b.val; omega) k ch
  | succ n ih =>
    intro h b j hn k ch
    by_cases h0 : (n + 1) % 6 = 0
    · have hj : j = 0 := Fin.ext (by have := j.isLt; show j.val = 0; omega)
      subst hj
      have hs : Finset.univ.filter (fun j' : Fin 6 => j'.val ≤ (0 : Fin 6).val) = {0} := by decide
      rw [hs, Finset.sum_singleton]
      exact outsAt_first m c ⟨n + 1, h⟩ h0 b (by show n + 1 = 6 * b.val; have : (0 : Fin 6).val = 0 := rfl; omega) k ch
    · have hjpos : j.val ≠ 0 := fun hj => h0 (by omega)
      have hjlt := j.isLt
      rw [outsAt0_B m c ⟨n + 1, h⟩ h0]
      refine (congrFun (out_B (F := Ideal) c (grid0.coords ⟨n + 1, h⟩) (ms0_0 ⟨n + 1, h⟩) (hs0_0 ⟨n + 1, h⟩) (ms0_1 ⟨n + 1, h⟩) (hs0_1 ⟨n + 1, h⟩)
        (ms0_2 ⟨n + 1, h⟩) (hs0_2 ⟨n + 1, h⟩) (fun hh => h0 ((hcond0_0 ⟨n + 1, h⟩).mp hh)) (lblk m c ⟨n + 1, h⟩) (fblk m c ⟨n + 1, h⟩)
        (outsAt0 m c ((⟨n + 1, h⟩ : Fin cfg0.N).val - 1) (Nat.lt_of_le_of_lt (Nat.sub_le _ _) (⟨n + 1, h⟩ : Fin cfg0.N).isLt))) (ix3 0 k ch)).trans ?_
      refine (tileStep_apply m c ⟨n + 1, h⟩ b j hn _ k ch).trans ?_
      rw [show outsAt0 m c ((⟨n + 1, h⟩ : Fin cfg0.N).val - 1) (Nat.lt_of_le_of_lt (Nat.sub_le _ _) (⟨n + 1, h⟩ : Fin cfg0.N).isLt) (ix3 0 k ch)
            = ∑ j' ∈ Finset.univ.filter (fun j' : Fin 6 => j'.val ≤ (⟨j.val - 1, by omega⟩ : Fin 6).val), tileTotal (labelsOf m c) (featsOf m c) b j' k ch
          from ih (Nat.lt_of_succ_lt h) b ⟨j.val - 1, by omega⟩ (by show n = 6 * b.val + (j.val - 1); omega) k ch]
      rw [sum_range_succ_tiles (fun j' => tileTotal (labelsOf m c) (featsOf m c) b j' k ch) j.val hjlt]
      congr 1
      refine Finset.sum_congr (Finset.filter_congr fun x _ => ?_) fun _ _ => rfl
      show x.val ≤ j.val - 1 ↔ x.val < j.val
      omega

/-- After the sixth tile of image `b` the table is the image's totals. -/
theorem block_full (c : Dev nD) (t : Fin cfg0.N) (h5 : t.val % 6 = 5) (b : Fin 8) (hb : t.val = 6 * b.val + 5) (k : Fin 9) (ch : Fin 10) :
    outsAt0 m c t.val t.isLt (ix3 0 k ch) = totals (labelsOf m c) (featsOf m c) (ix3 b k ch) := by
  rw [outsAt_eq m c t.val t.isLt b ⟨5, by omega⟩ hb k ch, totals_eq_tiles]
  exact sum_all_tiles _

/-- What a sixth tile's point writes back is image `b`'s block of the totals. -/
theorem flushed_eq (c : Dev nD) (t : Fin cfg0.N) (hf : (cfg0.win 2).flush t = true) :
    (dats m 0 c).flushed 2 t = ((cfg0.win 2).blk t).view.read (Elt Ideal) (totals (labelsOf m c) (featsOf m c)) := by
  have h5 : t.val % 6 = 5 := (flush0_2 t).mp hf
  have hN : t.val < 48 := lt_of_lt_of_eq t.isLt (show cfg0.N = 48 from N_0)
  obtain ⟨-, -, -, -, -, -, -, e0, e1, e2⟩ := idx_facts t
  show (cfg0.win 2).cut (grid0.coords t) ((dats m 0 c).after 2 t) = _
  rw [after0_2]
  funext y
  obtain ⟨y0, k, ch, rfl⟩ : ∃ (y0 : Fin 1) (k : Fin 9) (ch : Fin 10), y = ix3 y0 k ch := ⟨y 0, y 1, y 2, eq_ix3 y⟩
  obtain rfl : y0 = 0 := Subsingleton.elim _ _
  show outsAt0 m c t.val t.isLt (ix3 0 k ch) = totals (labelsOf m c) (featsOf m c) (((cfg0.win 2).blk t).view.emb (ix3 0 k ch))
  rw [block_full m c t h5 ⟨t.val / 6, by omega⟩ (by show t.val = 6 * (t.val / 6) + 5; omega) k ch]
  congr 1
  funext a; apply Fin.ext
  match a with
  | ⟨0, _⟩ => show t.val / 6 = win0_2.index t (0 : Fin 3) * 1 + 1 * 0; omega
  | ⟨1, _⟩ => show k.val = win0_2.index t (1 : Fin 3) * 9 + 1 * k.val; omega
  | ⟨2, _⟩ => show ch.val = win0_2.index t (2 : Fin 3) * 10 + 1 * ch.val; omega

/-- An entry of the totals' array lies in point `t`'s block iff each coordinate is in the block's range. -/
theorem mem_blk (t : Fin cfg0.N) (i : S8x9x10.Idx) :
    i ∈ ((cfg0.win 2).blk t).view.set ↔ ∀ a : Fin 3, win0_2.index t a * S1x9x10.size a ≤ (i a).val ∧ (i a).val < win0_2.index t a * S1x9x10.size a + S1x9x10.size a := by
  show i ∈ ((View.whole main_v0).slice (win0_2.rect t)).set ↔ _
  rw [View.set_slice_whole, Rect.mem_set_unit]
  exact Iff.rfl

/-- THE ARRAY after the region: the table of totals. Entry `(b, k, ch)` lies in the block point `6 b + 5` writes back. -/
theorem final (c : Dev nD) : (dats m 0 c).arrAt 2 cfg0.N = totals (labelsOf m c) (featsOf m c) :=
  (dats m 0 c).arrAt_eq_of_cover 2 (totals (labelsOf m c) (featsOf m c)) (fun t hf => flushed_eq m c t hf) fun i => by
    have hi0 : (i 0).val < 8 := (i 0).isLt
    have hi1 : (i 1).val < 9 := (i 1).isLt
    have hi2 : (i 2).val < 10 := (i 2).isLt
    have hlt : 6 * (i 0).val + 5 < cfg0.N := by rw [show cfg0.N = 48 from N_0]; omega
    refine ⟨⟨6 * (i 0).val + 5, hlt⟩, (flush0_2 _).mpr (by show (6 * (i 0).val + 5) % 6 = 5; omega), ?_⟩
    rw [mem_blk]
    obtain ⟨-, -, -, -, -, -, -, e0, e1, e2⟩ := idx_facts ⟨6 * (i 0).val + 5, hlt⟩
    have ev : (⟨6 * (i 0).val + 5, hlt⟩ : Fin cfg0.N).val = 6 * (i 0).val + 5 := rfl
    intro a
    match a with
    | ⟨0, _⟩ => show win0_2.index ⟨6 * (i 0).val + 5, hlt⟩ (0 : Fin 3) * 1 ≤ (i 0).val ∧ (i 0).val < win0_2.index ⟨6 * (i 0).val + 5, hlt⟩ (0 : Fin 3) * 1 + 1; omega
    | ⟨1, _⟩ => show win0_2.index ⟨6 * (i 0).val + 5, hlt⟩ (1 : Fin 3) * 9 ≤ (i 1).val ∧ (i 1).val < win0_2.index ⟨6 * (i 0).val + 5, hlt⟩ (1 : Fin 3) * 9 + 9; omega
    | ⟨2, _⟩ => show win0_2.index ⟨6 * (i 0).val + 5, hlt⟩ (2 : Fin 3) * 10 ≤ (i 2).val ∧ (i 2).val < win0_2.index ⟨6 * (i 0).val + 5, hlt⟩ (2 : Fin 3) * 10 + 10; omega

end Cert.KernelIdeal.Hand

end
-- ==== Proof.RefTotals.lean ====
/-
  The reference's two segment sums are the table of totals.

  The reference numbers the pixels of all eight images row-major, `n = (768 b + h) 768 + w`, gives pixel `n` the
  segment id `9 b + label` in 32-bit words, and scatter-adds into zero tables: the pixel's nine channel values into
  row `id` of a 72 x 9 table, and the constant one into entry `id` of 72 counts. An entry of either table is
  therefore the sum of the updates whose id is its row. Under the label range `0 .. 8` the id does not wrap, lies
  in `0 .. 71`, and `9 b' + label = 9 b + k` forces `b' = b` and `label = k`; so row `9 b + k` collects exactly the
  pixels of image `b` labelled `k`. Re-indexing the flat pixel axis by `(b, h, w)` turns the filtered sum into the
  sum over `(h, w)` of image `b` of the channel value (or one) times the indicator of label `k`: the totals.
-/
import proofs.«412884_j48808008352330_1_alg».proof.Proof.RefRead
import proofs.«412884_j48808008352330_1_alg».proof.Proof.Spec
import Idealize.ShloMosaic.Lib.ValueIdx
import Idealize.ShloMosaic.Lib.IdealHost
import Idealize.ShloMosaic.PureOps.Ideal.Laws
import Mathlib.Algebra.BigOperators.Group.Finset.Basic
import Mathlib.Data.Fintype.BigOperators

noncomputable section

open scoped BigOperators

namespace Cert.RefTotals

open Cert.ReferenceIdeal Cert.ReferenceIdeal.Gen Cert.ReferenceIdeal.ReadP Idealize.ShloMosaic Idealize.ShloMosaic.ValueIdx

/-- The table scatter's dimension record. -/
abbrev D2 := scatter_S72x9_S4718592x1_S4718592x9_1_0_0_1
/-- The count scatter's dimension record. -/
abbrev D1 := scatter_S72_S4718592x1_S4718592_n_0_0_1

/-! ## Where an update lands

The row axis of either table is the one scattered axis: its start is the update's segment id, read signed, and its
window coordinate is zero. The table's column axis is a window axis: start zero, coordinate the update's column. -/

theorem D2_start0 (idx : IVec S4718592x1 32) (j : S4718592x9.Idx) :
    D2.start j idx 0 = (idx (ix2 (j 0) (0 : Fin 1))).toInt := by
  unfold ScatterDims.start
  rw [dif_pos (show (0 : Fin 2) ∈ D2.scatterDimsToOperandDims by
    show (0 : Fin 2) ∈ ([0] : List (Fin 2)); decide)]
  congr 2
  funext a
  match a with
  | ⟨0, _⟩ => rfl
  | ⟨1, _⟩ => rfl

theorem D2_start1 (idx : IVec S4718592x1 32) (j : S4718592x9.Idx) :
    D2.start j idx 1 = 0 := by
  unfold ScatterDims.start
  rw [dif_neg (show ¬ (1 : Fin 2) ∈ D2.scatterDimsToOperandDims by
    show ¬ (1 : Fin 2) ∈ ([0] : List (Fin 2)); decide)]

theorem D2_window0 (j : S4718592x9.Idx) : D2.window j 0 = 0 := by
  unfold ScatterDims.window
  rw [dif_neg (show ¬ (0 : Fin 2) ∈ D2.sKept by
    show ¬ (0 : Fin 2) ∈ ([1] : List (Fin 2)); decide)]

theorem D2_window1 (j : S4718592x9.Idx) : D2.window j 1 = (j 1).val := by
  unfold ScatterDims.window
  rw [dif_pos (show (1 : Fin 2) ∈ D2.sKept by
    show (1 : Fin 2) ∈ ([1] : List (Fin 2)); decide)]
  rfl

theorem D1_start0 (idx : IVec S4718592x1 32) (j : S4718592.Idx) :
    D1.start j idx 0 = (idx (ix2 (j 0) (0 : Fin 1))).toInt := by
  unfold ScatterDims.start
  rw [dif_pos (show (0 : Fin 1) ∈ D1.scatterDimsToOperandDims by
    show (0 : Fin 1) ∈ ([0] : List (Fin 1)); decide)]
  congr 2
  funext a
  match a with
  | ⟨0, _⟩ => rfl
  | ⟨1, _⟩ => rfl

theorem D1_window0 (j : S4718592.Idx) : D1.window j 0 = 0 := by
  unfold ScatterDims.window
  rw [dif_neg (show ¬ (0 : Fin 1) ∈ D1.sKept by
    show ¬ (0 : Fin 1) ∈ ([] : List (Fin 1)); decide)]

/-- An update of the table scatter lands on entry `i` exactly when its segment id is `i`'s row and its column is
    `i`'s column. -/
theorem D2_result_iff (idx : IVec S4718592x1 32) (j : S4718592x9.Idx) (i : S72x9.Idx) :
    D2.resultIdx? j idx = some i ↔
      (idx (ix2 (j 0) (0 : Fin 1))).toInt = ((i 0).val : Int) ∧ (j 1).val = (i 1).val := by
  have hj1 : (j 1).val < 9 := (j 1).isLt
  have hi0 : (i 0).val < 72 := (i 0).isLt
  have hi1 : (i 1).val < 9 := (i 1).isLt
  unfold ScatterDims.resultIdx?
  split
  · rename_i h
    have h0 := h 0
    rw [D2_start0, D2_window0] at h0
    rw [Option.some.injEq]
    constructor
    · intro e
      have e0 := congrArg Fin.val (congrFun e 0)
      have e1 := congrArg Fin.val (congrFun e 1)
      simp only [D2_start0, D2_start1, D2_window0, D2_window1] at e0 e1
      constructor <;> omega
    · rintro ⟨e0, e1⟩
      have key : ∀ a, (⟨(D2.start j idx a + (D2.window j a : Int)).toNat, by have := h a; omega⟩ : Fin (S72x9.size a)) = i a :=
        Fin.forall_fin_two.2 ⟨Fin.ext (by simp only [D2_start0, D2_window0]; omega),
          Fin.ext (by simp only [D2_start1, D2_window1]; omega)⟩
      exact funext key
  · rename_i h
    constructor
    · intro e; cases e
    · rintro ⟨e0, e1⟩
      exfalso
      apply h
      refine Fin.forall_fin_two.2 ⟨?_, ?_⟩
      · rw [D2_start0, D2_window0]
        show 0 ≤ _ ∧ _ < ((72 : Nat) : Int)
        omega
      · rw [D2_start1, D2_window1]
        show 0 ≤ _ ∧ _ < ((9 : Nat) : Int)
        omega

/-- An update of the count scatter lands on entry `i` exactly when its segment id is `i`. -/
theorem D1_result_iff (idx : IVec S4718592x1 32) (j : S4718592.Idx) (i : S72.Idx) :
    D1.resultIdx? j idx = some i ↔ (idx (ix2 (j 0) (0 : Fin 1))).toInt = ((i 0).val : Int) := by
  have hi0 : (i 0).val < 72 := (i 0).isLt
  unfold ScatterDims.resultIdx?
  split
  · rename_i h
    have h0 := h 0
    rw [D1_start0, D1_window0] at h0
    rw [Option.some.injEq]
    constructor
    · intro e
      have e0 := congrArg Fin.val (congrFun e 0)
      simp only [D1_start0, D1_window0] at e0
      omega
    · intro e0
      have key : ∀ a, (⟨(D1.start j idx a + (D1.window j a : Int)).toNat, by have := h a; omega⟩ : Fin (S72.size a)) = i a :=
        Fin.forall_fin_one.2 (Fin.ext (by simp only [D1_start0, D1_window0]; omega))
      exact funext key
  · rename_i h
    constructor
    · intro e; cases e
    · intro e0
      exfalso
      apply h
      refine Fin.forall_fin_one.2 ?_
      rw [D1_start0, D1_window0]
      show 0 ≤ _ ∧ _ < ((72 : Nat) : Int)
      omega

/-! ## Pixels and their segment ids -/

/-- Pixel `(b, h, w)` and its row-major position among all pixels. -/
def pix : Fin 8 × Fin 768 × Fin 768 ≃ Fin 4718592 where
  toFun p := ⟨(p.1.val * 768 + p.2.1.val) * 768 + p.2.2.val, by
    have h0 := p.1.isLt; have h1 := p.2.1.isLt; have h2 := p.2.2.isLt; omega⟩
  invFun n := (⟨n.val / 589824, by have := n.isLt; omega⟩, ⟨n.val / 768 % 768, by omega⟩, ⟨n.val % 768, by omega⟩)
  left_inv p := by
    obtain ⟨b, h, w⟩ := p
    have h0 := b.isLt; have h1 := h.isLt; have h2 := w.isLt
    refine Prod.ext (Fin.ext ?_) (Prod.ext (Fin.ext ?_) (Fin.ext ?_))
    · show ((b.val * 768 + h.val) * 768 + w.val) / 589824 = b.val; omega
    · show ((b.val * 768 + h.val) * 768 + w.val) / 768 % 768 = h.val; omega
    · show ((b.val * 768 + h.val) * 768 + w.val) % 768 = w.val; omega
  right_inv n := by
    have := n.isLt
    refine Fin.ext ?_
    show (n.val / 589824 * 768 + n.val / 768 % 768) * 768 + n.val % 768 = n.val
    omega

theorem pix_val (b : Fin 8) (h w : Fin 768) : (pix (b, h, w)).val = (b.val * 768 + h.val) * 768 + w.val := rfl

/-- A word whose signed value lies in `0 .. 8` has that unsigned value. -/
theorem toNat_of_range (l : BitVec 32) (h0 : 0 ≤ l.toInt) (h9 : l.toInt < 9) :
    l.toNat < 9 ∧ l.toInt = (l.toNat : Int) := by
  have hl : l.toNat < 4294967296 := l.isLt
  rw [BitVec.toInt_eq_toNat_cond] at h0 h9 ⊢
  split_ifs at h0 h9 ⊢ <;> omega

/-- `9 b + label` does not wrap for `b < 8` and a label in `0 .. 8`. -/
theorem id_toInt (b : Nat) (hb : b < 8) (l : BitVec 32) (h0 : 0 ≤ l.toInt) (h9 : l.toInt < 9) :
    (IntOp.addi (IntOp.muli (BitVec.ofNat 32 b) 9#32) l).toInt = ((9 * b + l.toNat : Nat) : Int) := by
  obtain ⟨hl, _⟩ := toNat_of_range l h0 h9
  unfold IntOp.addi IntOp.muli
  rw [BitVec.toInt_eq_toNat_cond, BitVec.toNat_add, BitVec.toNat_mul, BitVec.toNat_ofNat]
  have h9' : (9#32 : BitVec 32).toNat = 9 := rfl
  rw [h9']
  have e : (b % 2 ^ 32 * 9 % 2 ^ 32 + l.toNat) % 2 ^ 32 = 9 * b + l.toNat := by omega
  rw [e, if_pos (by omega)]

/-- A word in `0 .. 8` is the word of `k < 9` exactly when its unsigned value is `k`. -/
theorem eq_ofNat_iff (l : BitVec 32) (k : Nat) (hk : k < 9) : l = BitVec.ofNat 32 k ↔ l.toNat = k := by
  rw [← BitVec.toNat_inj, BitVec.toNat_ofNat]
  have : k % 2 ^ 32 = k := by omega
  rw [this]

/-- The segment id of pixel `(b, h, w)`: nine times the image number plus the label, in 32-bit words. -/
theorem id_at (labels : IVec S8x768x768 32) (b : Fin 8) (h w : Fin 768) :
    val_main_v23 (F := Ideal) labels (ix2 (pix (b, h, w)) (0 : Fin 1)) =
      IntOp.addi (IntOp.muli (BitVec.ofNat 32 b.val) 9#32) (labels (ix3 b h w)) := by
  have h0 := b.isLt; have h1 := h.isLt; have h2 := w.isLt
  rw [val_main_v23_apply, val_main_v21_apply, val_main_v20_apply, val_main_v19_apply, val_main_v18_apply,
    val_main_v16_apply, val_main_v15_apply, val_main_v17_apply, val_main_c_2_apply]
  have hidx : idx_main_v21 (idx_main_v23 (ix2 (pix (b, h, w)) (0 : Fin 1))) = ix3 b h w := by
    funext a
    match a with
    | ⟨0, _⟩ => exact Fin.ext (by show ((b.val * 768 + h.val) * 768 + w.val) / 589824 = b.val; omega)
    | ⟨1, _⟩ => exact Fin.ext (by show ((b.val * 768 + h.val) * 768 + w.val) / 768 % 768 = h.val; omega)
    | ⟨2, _⟩ => exact Fin.ext (by show ((b.val * 768 + h.val) * 768 + w.val) % 768 = w.val; omega)
  rw [hidx]

/-- The same ids feed the count scatter. -/
theorem id_at' (labels : IVec S8x768x768 32) (b : Fin 8) (h w : Fin 768) :
    val_main_v28 (F := Ideal) labels (ix2 (pix (b, h, w)) (0 : Fin 1)) =
      IntOp.addi (IntOp.muli (BitVec.ofNat 32 b.val) 9#32) (labels (ix3 b h w)) := id_at labels b h w

/-- Under the label range, pixel `(b', h, w)` has segment id `9 b + k` exactly when it is a pixel of image `b`
    labelled `k`. -/
theorem id_eq_iff (labels : IVec S8x768x768 32) (hl : Cert.Spec.LabelsInRange labels) (b' : Fin 8) (h w : Fin 768)
    (b : Fin 8) (k : Fin 9) (r : Nat) (hr : r = b.val * 9 + k.val) :
    (IntOp.addi (IntOp.muli (BitVec.ofNat 32 b'.val) 9#32) (labels (ix3 b' h w))).toInt = (r : Int) ↔
      b' = b ∧ labels (ix3 b' h w) = BitVec.ofNat 32 k.val := by
  obtain ⟨l0, l9⟩ := hl (ix3 b' h w)
  obtain ⟨hlt, _⟩ := toNat_of_range _ l0 l9
  have hb' := b'.isLt; have hb := b.isLt; have hk := k.isLt
  rw [id_toInt b'.val hb' _ l0 l9, eq_ofNat_iff _ k.val hk, Fin.ext_iff]
  constructor
  · intro e; constructor <;> omega
  · rintro ⟨e1, e2⟩; rw [e1, e2, hr]; push_cast; ring

/-- The update the table scatter takes from pixel `(b, h, w)` in column `c` is channel `c` of that pixel. -/
theorem upd_at (x : FVec Ideal S8x9x768x768 .f32) (b : Fin 8) (h w : Fin 768) (c : Fin 9) :
    val_main_v14 (F := Ideal) x (ix2 (pix (b, h, w)) c) = x (ix4 b c h w) := by
  have h0 := b.isLt; have h1 := h.isLt; have h2 := w.isLt; have h3 := c.isLt
  rw [val_main_v14_apply, val_main_v13_apply]
  congr 1
  funext a
  match a with
  | ⟨0, _⟩ => exact Fin.ext (by show (((b.val * 768 + h.val) * 768 + w.val) * 9 + c.val) / 5308416 = b.val; omega)
  | ⟨1, _⟩ => exact Fin.ext (by show (((b.val * 768 + h.val) * 768 + w.val) * 9 + c.val) % 9 = c.val; omega)
  | ⟨2, _⟩ => exact Fin.ext (by show (((b.val * 768 + h.val) * 768 + w.val) * 9 + c.val) / 6912 % 768 = h.val; omega)
  | ⟨3, _⟩ => exact Fin.ext (by show (((b.val * 768 + h.val) * 768 + w.val) * 9 + c.val) / 9 % 768 = w.val; omega)

/-! ## The two segment sums -/

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A sum over all flat pixels is the sum over images, rows and columns. -/
theorem sum_pix {M : Type*} [AddCommMonoid M] (g : Fin 4718592 → M) :
    ∑ n, g n = ∑ b : Fin 8, ∑ h : Fin 768, ∑ w : Fin 768, g (pix (b, h, w)) := by
  rw [← Equiv.sum_comp pix g, Fintype.sum_prod_type]
  refine Finset.sum_congr rfl fun b _ => ?_
  rw [Fintype.sum_prod_type]

/-- The accumulating scatter read at one entry: the operand's entry plus every update that lands on it. -/
theorem scatterAdd_apply {s si su : Shape} (d : ScatterDims s si su) {w : Nat} (v : FVec Ideal s .f32)
    (idx : IVec si w) (upd : FVec Ideal su .f32) (i : s.Idx) :
    Host.scatterAdd d v idx upd i =
      v i + ∑ j ∈ Finset.univ.filter (fun j => d.resultIdx? j idx = some i), upd j := rfl

/-- The totals at `(b, k, c)`, spelt out. -/
theorem totals_apply (labels : IVec S8x768x768 32) (x : FVec Ideal S8x9x768x768 .f32) (b : Fin 8) (k : Fin 9) (c : Fin 10) :
    Cert.Spec.totals labels x (ix3 b k c) =
      ∑ h : Fin 768, ∑ w : Fin 768, Cert.Spec.aug x b c h w * Cert.Spec.hit labels b k h w := by
  unfold Cert.Spec.totals
  exact Finset.sum_congr rfl fun h _ => Finset.sum_congr rfl fun w _ => rfl

/-- The reference's table of per-class channel sums is the first nine channels of the totals. -/
theorem sums_eq (labels : IVec S8x768x768 32) (x : FVec Ideal S8x9x768x768 .f32) (hl : Cert.Spec.LabelsInRange labels)
    (b : Fin 8) (k : Fin 9) (c : Fin 9) :
    val_main_v25 (F := Ideal) labels x (ix3 b k c) = Cert.Spec.totals labels x (ix3 b k c.castSucc) := by
  have hc := c.isLt
  -- the entry of the 72 x 9 table this element is read from
  have hi0 : ((idx_main_v25 (ix3 b k c)) 0).val = b.val * 9 + k.val := by
    show ((b.val * 9 + k.val) * 9 + c.val) / 9 = b.val * 9 + k.val; omega
  have hi1 : ((idx_main_v25 (ix3 b k c)) 1).val = c.val := by
    show ((b.val * 9 + k.val) * 9 + c.val) % 9 = c.val; omega
  -- when pixel (b', h, w)'s update in column c' lands there
  have land : ∀ (b' : Fin 8) (h w : Fin 768) (c' : Fin 9),
      D2.resultIdx? (ix2 (pix (b', h, w)) c') (val_main_v23 (F := Ideal) labels) = some (idx_main_v25 (ix3 b k c)) ↔
        (b' = b ∧ labels (ix3 b' h w) = BitVec.ofNat 32 k.val) ∧ c' = c := by
    intro b' h w c'
    rw [D2_result_iff]
    show (val_main_v23 (F := Ideal) labels (ix2 (pix (b', h, w)) (0 : Fin 1))).toInt = _ ∧ c'.val = _ ↔ _
    rw [id_at, id_eq_iff labels hl b' h w b k _ hi0, hi1]
    exact and_congr_right' Fin.val_inj

  rw [val_main_v25_apply]
  unfold val_main_v24
  rw [scatterAdd_apply, val_main_v22_apply, val_main_cst_3_apply, Ideal.ofBits_def, Ideal.ofBits_zero_f32, zero_add,
    Finset.sum_filter, sum_idx2, sum_pix, totals_apply]
  -- only image `b` contributes
  refine (Finset.sum_eq_single b ?_ ?_).trans ?_
  · intro b' _ hne
    refine Finset.sum_eq_zero fun h _ => Finset.sum_eq_zero fun w _ => Finset.sum_eq_zero fun c' _ => ?_
    exact if_neg (fun e => hne ((land b' h w c').1 e).1.1)
  · intro hn; exact absurd (Finset.mem_univ b) hn
  · refine Finset.sum_congr rfl fun h _ => Finset.sum_congr rfl fun w _ => ?_
    -- and of a pixel's nine updates only the one in column `c`
    refine (Finset.sum_eq_single c ?_ ?_).trans ?_
    · intro c' _ hne
      exact if_neg (fun e => hne ((land b h w c').1 e).2)
    · intro hn; exact absurd (Finset.mem_univ c) hn
    · rw [upd_at]
      unfold Cert.Spec.aug Cert.Spec.hit
      rw [dif_pos (show c.castSucc.val < 9 from hc)]
      by_cases hit : labels (ix3 b h w) = BitVec.ofNat 32 k.val
      · rw [if_pos ((land b h w c).2 ⟨⟨rfl, hit⟩, rfl⟩), if_pos hit, mul_one]; rfl
      · rw [if_neg (fun e => hit ((land b h w c).1 e).1.2), if_neg hit, mul_zero]

/-- The reference's table of per-class pixel counts is the tenth channel of the totals. -/
theorem counts_eq (labels : IVec S8x768x768 32) (x : FVec Ideal S8x9x768x768 .f32) (hl : Cert.Spec.LabelsInRange labels)
    (b : Fin 8) (k : Fin 9) :
    val_main_v30 (F := Ideal) labels (ix2 b k) = Cert.Spec.totals labels x (ix3 b k (Fin.last 9)) := by
  have hi0 : ((idx_main_v30 (ix2 b k)) 0).val = b.val * 9 + k.val := rfl
  -- when pixel (b', h, w)'s update lands on entry 9 b + k of the 72 counts
  have land : ∀ (b' : Fin 8) (h w : Fin 768),
      D1.resultIdx? (ix1 (pix (b', h, w))) (val_main_v28 (F := Ideal) labels) = some (idx_main_v30 (ix2 b k)) ↔
        (b' = b ∧ labels (ix3 b' h w) = BitVec.ofNat 32 k.val) := by
    intro b' h w
    rw [D1_result_iff]
    show (val_main_v28 (F := Ideal) labels (ix2 (pix (b', h, w)) (0 : Fin 1))).toInt = _ ↔ _
    rw [id_at', id_eq_iff labels hl b' h w b k _ hi0]
  rw [val_main_v30_apply]
  unfold val_main_v29
  rw [scatterAdd_apply, val_main_v27_apply, val_main_cst_5_apply, Ideal.ofBits_def, Ideal.ofBits_zero_f32, zero_add,
    Finset.sum_filter, sum_idx1, sum_pix, totals_apply]
  -- only image `b` contributes
  refine (Finset.sum_eq_single b ?_ ?_).trans ?_
  · intro b' _ hne
    refine Finset.sum_eq_zero fun h _ => Finset.sum_eq_zero fun w _ => ?_
    exact if_neg (fun e => hne ((land b' h w).1 e).1)
  · intro hn; exact absurd (Finset.mem_univ b) hn
  · refine Finset.sum_congr rfl fun h _ => Finset.sum_congr rfl fun w _ => ?_
    rw [val_main_v26_apply, val_main_cst_4_apply, Ideal.ofBits_def, Ideal.ofBits_one_f32]
    unfold Cert.Spec.aug Cert.Spec.hit
    rw [dif_neg (show ¬ (Fin.last 9).val < 9 from Nat.lt_irrefl 9), one_mul]
    by_cases hit : labels (ix3 b h w) = BitVec.ofNat 32 k.val
    · rw [if_pos ((land b h w).2 ⟨rfl, hit⟩), if_pos hit]
    · rw [if_neg (fun e => hit ((land b h w).1 e).2), if_neg hit]

end Cert.RefTotals

end
-- ==== Proof.Tail.lean ====
/-
  The host lines both programs share, without ever naming them.

  After their totals both programs run the same jnp code: smoothed one-hot targets, prototypes as sums over counts
  (counts floored at one), a log-softmax, the target-weighted sum, a mask of the classes that occur, and a mean over
  those. In the kernel program these are the 67 lines after the pallas_call, reading the call's 8 x 9 x 10 result:
  its first nine channels as the sums and its tenth as the counts. In the reference they are its last stages,
  reading its two scatter-added tables.

  So if the reference's sums table is the first nine channels of what the later lines find in the call's result
  buffer, and its counts table the tenth, then the later lines end at the reference's result: the two composed
  terms are the same tree of operations over the same two leaves. This holds at every float instance.
-/
import proofs.«412884_j48808008352330_1_alg».proof.Proof.KernelIdeal.Entry
import proofs.«412884_j48808008352330_1_alg».proof.Proof.RefRead
import Idealize.ShloMosaic.Lib.StableHlo.Run

noncomputable section

namespace Cert.Tail

open Cert.KernelIdeal Cert.KernelIdeal.Gen Cert.KernelIdeal.Facts
open Idealize.ShloMosaic Idealize.ShloMosaic.TcCoe Idealize.ShloMosaic.StableHlo Idealize.SL.Sem

variable {F : FTy → Type} [FloatOps F]

set_option maxRecDepth 8192 in
set_option maxHeartbeats 8000000 in
/-- From any contents `W` of the TensorCore buffers: if the reference's two tables (of inputs `labels`, `x`) are the
    two parts of what `W` holds in the call's result buffer, the kernel program's later lines compute the
    reference's result. Left side: the lines folded over `W`. Right side: the reference's stages opened down to,
    and not into, its two tables. -/
theorem tail_agree (W : Valuation τ sig (Elt F))
    (labels : (⟨Cert.ReferenceIdeal.S8x768x768, .i32⟩ : BufTy).Contents (Elt F)) (x : (⟨Cert.ReferenceIdeal.S8x9x768x768, .f32⟩ : BufTy).Contents (Elt F))
    (hs : Cert.ReferenceIdeal.ReadP.val_main_v25 (F := F) labels x
        = extractStridedSlice S8x9x9 ![0, 0, 0] (W (Proc.devRef .tc main_v0)) slices_S8x9x10_S8x9x9_0_0_0)
    (hc : Cert.ReferenceIdeal.ReadP.val_main_v30 (F := F) labels
        = shapeCast _ (extractStridedSlice S8x9x1 ![0, 0, 9] (W (Proc.devRef .tc main_v0)) slices_S8x9x10_S8x9x1_0_0_9) shapeCasts_S8x9x1_S8x9) :
    StableHlo.after (Cert.KernelIdeal.Hand.tailOps (F := F)).flatten W (Proc.devRef .tc main_v40)
      = Cert.ReferenceIdeal.ReadP.val_main_v54 (F := F) labels x := by
  simp only [Cert.KernelIdeal.Hand.tailOps, hostOps1, hostOps1_1, hostOps1_2, hostOps1_3, hostOps1_4, List.flatten_cons, List.flatten_nil,
    List.append_nil, List.cons_append, List.nil_append]
  after_results_simp
  simp only [Cert.ReferenceIdeal.ReadP.val_main_v0, Cert.ReferenceIdeal.ReadP.val_main_v1, Cert.ReferenceIdeal.ReadP.val_main_c, Cert.ReferenceIdeal.ReadP.val_main_v2,
    Cert.ReferenceIdeal.ReadP.val_main_v3, Cert.ReferenceIdeal.ReadP.val_main_v4, Cert.ReferenceIdeal.ReadP.val_main_v5, Cert.ReferenceIdeal.ReadP.val_main_cst,
    Cert.ReferenceIdeal.ReadP.val_main_v6, Cert.ReferenceIdeal.ReadP.val_main_v7, Cert.ReferenceIdeal.ReadP.val_main_cst_0, Cert.ReferenceIdeal.ReadP.val_main_v8,
    Cert.ReferenceIdeal.ReadP.val_main_v9, Cert.ReferenceIdeal.ReadP.val_main_cst_1, Cert.ReferenceIdeal.ReadP.val_main_v10, Cert.ReferenceIdeal.ReadP.val_main_v11,
    Cert.ReferenceIdeal.ReadP.val_main_v12, Cert.ReferenceIdeal.ReadP.val_main_v13, Cert.ReferenceIdeal.ReadP.val_main_v14, Cert.ReferenceIdeal.ReadP.val_main_v15,
    Cert.ReferenceIdeal.ReadP.val_main_v16, Cert.ReferenceIdeal.ReadP.val_main_c_2, Cert.ReferenceIdeal.ReadP.val_main_v17, Cert.ReferenceIdeal.ReadP.val_main_v18,
    Cert.ReferenceIdeal.ReadP.val_main_v19, Cert.ReferenceIdeal.ReadP.val_main_v20, Cert.ReferenceIdeal.ReadP.val_main_v21, Cert.ReferenceIdeal.ReadP.val_main_cst_3,
    Cert.ReferenceIdeal.ReadP.val_main_v22, Cert.ReferenceIdeal.ReadP.val_main_v23, Cert.ReferenceIdeal.ReadP.val_main_v24, Cert.ReferenceIdeal.ReadP.val_main_cst_4,
    Cert.ReferenceIdeal.ReadP.val_main_v26, Cert.ReferenceIdeal.ReadP.val_main_cst_5, Cert.ReferenceIdeal.ReadP.val_main_v27, Cert.ReferenceIdeal.ReadP.val_main_v28,
    Cert.ReferenceIdeal.ReadP.val_main_v29, Cert.ReferenceIdeal.ReadP.val_main_v31, Cert.ReferenceIdeal.ReadP.val_main_v32, Cert.ReferenceIdeal.ReadP.val_main_v33,
    Cert.ReferenceIdeal.ReadP.val_main_cst_6, Cert.ReferenceIdeal.ReadP.val_main_v34, Cert.ReferenceIdeal.ReadP.val_main_v35, Cert.ReferenceIdeal.ReadP.val_main_v36,
    Cert.ReferenceIdeal.ReadP.val_main_v37, Cert.ReferenceIdeal.ReadP.val_main_v38, Cert.ReferenceIdeal.ReadP.val_main_cst_7, Cert.ReferenceIdeal.ReadP.val_main_v39,
    Cert.ReferenceIdeal.ReadP.val_main_v40, Cert.ReferenceIdeal.ReadP.val_main_call0_cst, Cert.ReferenceIdeal.ReadP.val_main_call0_v0, Cert.ReferenceIdeal.ReadP.val_main_call0_cst_0,
    Cert.ReferenceIdeal.ReadP.val_main_call0_v1, Cert.ReferenceIdeal.ReadP.val_main_call0_v2, Cert.ReferenceIdeal.ReadP.val_main_call0_v3, Cert.ReferenceIdeal.ReadP.val_main_call0_v4,
    Cert.ReferenceIdeal.ReadP.val_main_call0_v5, Cert.ReferenceIdeal.ReadP.val_main_call0_v6, Cert.ReferenceIdeal.ReadP.val_main_call0_cst_1, Cert.ReferenceIdeal.ReadP.val_main_call0_v7,
    Cert.ReferenceIdeal.ReadP.val_main_call0_v8, Cert.ReferenceIdeal.ReadP.val_main_call0_v9, Cert.ReferenceIdeal.ReadP.val_main_call0_v10, Cert.ReferenceIdeal.ReadP.val_main_v41,
    Cert.ReferenceIdeal.ReadP.val_main_v42, Cert.ReferenceIdeal.ReadP.val_main_v43, Cert.ReferenceIdeal.ReadP.val_main_v44, Cert.ReferenceIdeal.ReadP.val_main_v45,
    Cert.ReferenceIdeal.ReadP.val_main_cst_8, Cert.ReferenceIdeal.ReadP.val_main_v46, Cert.ReferenceIdeal.ReadP.val_main_v47, Cert.ReferenceIdeal.ReadP.val_main_v48,
    Cert.ReferenceIdeal.ReadP.val_main_c_9, Cert.ReferenceIdeal.ReadP.val_main_v49, Cert.ReferenceIdeal.ReadP.val_main_v50, Cert.ReferenceIdeal.ReadP.val_main_cst_10,
    Cert.ReferenceIdeal.ReadP.val_main_v51, Cert.ReferenceIdeal.ReadP.val_main_cst_11, Cert.ReferenceIdeal.ReadP.val_main_call1_v0, Cert.ReferenceIdeal.ReadP.val_main_call1_v1,
    Cert.ReferenceIdeal.ReadP.val_main_v52, Cert.ReferenceIdeal.ReadP.val_main_cst_12, Cert.ReferenceIdeal.ReadP.val_main_v53, Cert.ReferenceIdeal.ReadP.val_main_v54]
  rw [hs, hc]
  first
    | rfl
    | (simp only [TRef.ofBuf, TRef.toBuf, cast_eq]; rfl)

end Cert.Tail

end
-- ==== Proof.KernelIdeal.Result.lean ====
/-
  The kernel program's result at the ideal instance is the reference's result on the same inputs.

  After the region the 67 host lines run from a memory in which the totals' array holds the table of totals and
  every other buffer its launch contents. With every label in range the reference's sums table is the first nine
  channels of that table and its counts table the tenth (the reference's segment sums are the totals), so the
  later lines end at what the reference's stages compute from the same label map and feature maps.
-/
import proofs.«412884_j48808008352330_1_alg».proof.Proof.KernelIdeal.Value
import proofs.«412884_j48808008352330_1_alg».proof.Proof.RefTotals
import proofs.«412884_j48808008352330_1_alg».proof.Proof.Tail

set_option maxRecDepth 16384

noncomputable section

namespace Cert.KernelIdeal.Hand

open Cert.KernelIdeal Cert.KernelIdeal.Gen Cert.KernelIdeal.Facts
open Idealize.ShloMosaic Idealize.ShloMosaic.TcCoe Idealize.SL.Sem Idealize.ShloMosaic.ValueIdx
open Idealize.ShloMosaic.Pipeline (Dat)
open Cert.Spec

variable (m : (ℓ : Loc nD τ sig) → Buf (Elt Ideal) ℓ) (ρ : Dev nD → PrngReg)

/-- The sums the later lines read: the first nine channels of a table. -/
abbrev sumsPart (T : FVec Ideal S8x9x10 .f32) : FVec Ideal S8x9x9 .f32 :=
  extractStridedSlice S8x9x9 ![0, 0, 0] T slices_S8x9x10_S8x9x9_0_0_0
/-- The counts the later lines read: the tenth channel of a table. -/
abbrev countsPart (T : FVec Ideal S8x9x10 .f32) : FVec Ideal S8x9 .f32 :=
  shapeCast _ (extractStridedSlice S8x9x1 ![0, 0, 9] T slices_S8x9x10_S8x9x1_0_0_9) shapeCasts_S8x9x1_S8x9

theorem sumsPart_apply (T : FVec Ideal S8x9x10 .f32) (b : Fin 8) (k : Fin 9) (ch : Fin 9) :
    sumsPart T (ix3 b k ch) = T (ix3 b k ch.castSucc) :=
  extractStridedSlice_apply ![0, 0, 0] T slices_S8x9x10_S8x9x9_0_0_0 (ix3 b k ch) (ix3 b k ch.castSucc) fun a => by
    match a with
    | ⟨0, _⟩ => show b.val = 0 + b.val; omega
    | ⟨1, _⟩ => show k.val = 0 + k.val; omega
    | ⟨2, _⟩ => show ch.val = 0 + ch.val; omega

theorem countsPart_apply (T : FVec Ideal S8x9x10 .f32) (b : Fin 8) (k : Fin 9) :
    countsPart T (ix2 b k) = T (ix3 b k (Fin.last 9)) := by
  refine (shapeCast_apply _ shapeCasts_S8x9x1_S8x9 (ix2 b k) (ix3 b k (0 : Fin 1)) ?_).trans ?_
  · rw [Shape.rowMajor_val_three, Shape.rowMajor_val_two]
    show (b.val * 9 + k.val) * 1 + 0 = b.val * 9 + k.val
    omega
  · exact extractStridedSlice_apply ![0, 0, 9] T slices_S8x9x10_S8x9x1_0_0_9 (ix3 b k (0 : Fin 1)) (ix3 b k (Fin.last 9)) fun a => by
      match a with
      | ⟨0, _⟩ => show b.val = 0 + b.val; omega
      | ⟨1, _⟩ => show k.val = 0 + k.val; omega
      | ⟨2, _⟩ => show 9 = 9 + 0; omega

/-- With every label in range, the reference's two tables are the two parts of the totals. -/
theorem ref_tables (labels : IVec SLabels 32) (x : FVec Ideal SFeats .f32) (hl : LabelsInRange labels) :
    Cert.ReferenceIdeal.ReadP.val_main_v25 (F := Ideal) labels x = sumsPart (totals labels x)
    ∧ Cert.ReferenceIdeal.ReadP.val_main_v30 (F := Ideal) labels = countsPart (totals labels x) := by
  constructor
  · funext i
    obtain ⟨b, k, ch, rfl⟩ : ∃ (b : Fin 8) (k : Fin 9) (ch : Fin 9), i = ix3 b k ch := ⟨i 0, i 1, i 2, eq_ix3 i⟩
    exact (Cert.RefTotals.sums_eq labels x hl b k ch).trans (sumsPart_apply _ b k ch).symm
  · funext i
    obtain ⟨b, k, rfl⟩ : ∃ (b : Fin 8) (k : Fin 9), i = ix2 b k := ⟨i 0, i 1, eq_ix2 i⟩
    exact (Cert.RefTotals.counts_eq labels x hl b k).trans (countsPart_apply _ b k).symm

/-- Every weakly fair execution of the kernel program, from labels in range, ends with its result at what the
    reference's stages compute from the same two inputs, and with both argument arrays as launched. -/
theorem run_value (hl : ∀ c : Dev nD, LabelsInRange (labelsOf m c)) :
    θ_run defs (onTc (τ := τ) (main (F := Ideal))) ⟨m, fun _ => 0, ρ⟩ fun r => ∀ c : Dev nD,
      r.2.mem ((c.tc : Thread nD τ).loc main_v40) = Cert.ReferenceIdeal.ReadP.val_main_v54 (F := Ideal) (labelsOf m c) (featsOf m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => by
    refine ⟨?_, ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩
    refine ((h c).2 main_v40 (by decide)).trans ?_
    show StableHlo.after (tailOps (F := Ideal)).flatten
        (Pipeline.withArrays spec0 c (V0 m c) fun w => (dats m 0 c).arrAt w cfg0.N) (Proc.devRef .tc main_v40) = _
    have hv0 : Pipeline.withArrays spec0 c (V0 m c) (fun w => (dats m 0 c).arrAt w cfg0.N) (Proc.devRef .tc main_v0)
        = totals (labelsOf m c) (featsOf m c) :=
      (Pipeline.withArrays_arr spec0 launch0.win.arr_inj c _ _ 2).trans (final m c)
    obtain ⟨hs, hc⟩ := ref_tables (labelsOf m c) (featsOf m c) (hl c)
    have key := Cert.Tail.tail_agree (F := Ideal)
      (Pipeline.withArrays spec0 c (V0 m c) fun w => (dats m 0 c).arrAt w cfg0.N) (labelsOf m c) (featsOf m c)
    rw [hv0] at key
    exact key hs hc)
    (run_main (F := Ideal) m ρ)

end Cert.KernelIdeal.Hand

end
-- ==== Proof.PreRange.lean ====
/-
  Reading the precondition. The printed predicate is the conjunction of "every feature is finite" and "every label,
  compared signed, is at least 0 and below 9", each an and-reduction over all axes of an array of one-bit words. Where
  the predicate is 1, the second and-reduction is 1, so its operand is 1 at every index; there both compares are 1,
  which says, of the label read signed, 0 ≤ it and it < 9.
-/
import proofs.«412884_j48808008352330_1_alg».proof.Proof.Gen.Pre_finite_inputs
import proofs.«412884_j48808008352330_1_alg».proof.Proof.Spec
import Idealize.ShloMosaic.Lib.ReduceAll
import Idealize.ShloMosaic.Lib.ValueIdx

noncomputable section

namespace Cert.PreRange

open Idealize.ShloMosaic Idealize.ShloMosaic.ValueIdx

attribute [local instance] Cert.Pre_finite_inputs.Gen.facts

/-- The shape of a scalar has one index. -/
instance : Subsingleton Cert.Pre_finite_inputs.S_.Idx := ⟨fun a b => funext fun d => d.elim0⟩

/-- Where the precondition holds, every label lies in `0 .. 8` read signed. -/
theorem labels_in_range (labels : IVec Cert.Pre_finite_inputs.S8x768x768 32)
    (x : FVec Ideal Cert.Pre_finite_inputs.S8x9x768x768 .f32)
    (h : Cert.Pre_finite_inputs.fn (F := Ideal) labels x = fun _ => 1#1) : Cert.Spec.LabelsInRange labels := by
  intro i
  have h0 := congrFun h ix0
  dsimp only [Cert.Pre_finite_inputs.fn] at h0
  -- the top conjunction: the labels' half
  obtain ⟨-, h9⟩ := IntOp.andi_eq_one.1 h0
  -- the and-reduction over all axes is 1, so its operand is 1 at `i`
  have hi := Host.reduce_andi_all _ _ _ _ _ h9 i
  -- the operand at `i` is the conjunction of the two compares
  obtain ⟨h5, h7⟩ := IntOp.andi_eq_one.1 hi
  have h5' : (0#32 : BitVec 32).toInt ≤ (labels i).toInt := IntOp.cmpi_sge.1 h5
  have h7' : (labels i).toInt < (9#32 : BitVec 32).toInt := IntOp.cmpi_slt.1 h7
  have e0 : (0#32 : BitVec 32).toInt = 0 := by decide
  have e9 : (9#32 : BitVec 32).toInt = 9 := by decide
  rw [e0] at h5'
  rw [e9] at h7'
  exact ⟨h5', h7'⟩

end Cert.PreRange

end
-- ==== Proof.lean ====
/-
  Two programs compute a prototype cross-entropy loss from a label map (8 images of 768 x 768 pixels, labels in
  0 .. 8) and nine feature maps per image. Both first reduce the inputs to per-(image, class) totals — for each
  class the sum of every channel over the pixels carrying that label, and the number of such pixels — and then
  apply the same short chain of host operations to that table.

  The kernel program gets the totals from one pallas_call over an 8 x 6 grid: each point sees 128 rows of one
  image, turns the labels into nine one-hot masks, multiplies the ten-channel block (nine features and a channel of
  ones) by each mask and sums it, and adds the 9 x 10 result to a running table that is reset at an image's first
  tile and written back after its sixth. The reference flattens the pixels, keys each by 9 * image + label, and
  scatter-adds the features (and a one) into a 72-row table.

  With every label in 0 .. 8 the key 9 * image + label determines the image and the label, so the reference's
  row (image, class) collects exactly the pixels of that image with that label: the same sum the kernel reaches
  tile by tile, in another order — and over the extended reals a finite sum does not depend on its order, and
  multiplying by an indicator that is one or zero keeps or drops a term. The label range is what makes the key
  faithful; without it a stray label moves a pixel into another image's row.

  The frames of the two kernel programs are proved from the body's two runs (reset tile, later tile) and the
  launch theorem for a region followed by host lines; the reference is a straight line of host operations.
-/
import proofs.«412884_j48808008352330_1_alg».proof.Defs
import proofs.«412884_j48808008352330_1_alg».proof.Proof.Kernel.Frame
import proofs.«412884_j48808008352330_1_alg».proof.Proof.KernelIdeal.Result
import proofs.«412884_j48808008352330_1_alg».proof.Proof.PreRange
import proofs.«412884_j48808008352330_1_alg».proof.Proof.Gen.Kernel
import proofs.«412884_j48808008352330_1_alg».proof.Proof.Gen.KernelIdeal
import proofs.«412884_j48808008352330_1_alg».proof.Proof.Gen.ReferenceIdeal
import proofs.«412884_j48808008352330_1_alg».proof.Proof.Gen.Pre_finite_inputs

noncomputable section

namespace Cert.Proof

open Idealize.ShloMosaic Idealize.ShloMosaic.TcCoe Idealize.SL.Sem Idealize.ShloMosaic.ValueIdx

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := fun m ρ _ =>
  (θ_run Cert.ReferenceIdeal.defs _ _).mono (fun _ h c => (h c).2) (Cert.ReferenceIdeal.ValueP.run (F := Ideal) m ρ)

/-- From memories agreeing on the two inputs, with every feature finite and every label in range, both idealized
    programs run and end with the same loss. -/
theorem algebraic : Cert.algebraic_KernelIdeal_ReferenceIdeal := by
  intro m ρ m' ρ' hpre hagree
  have hl : ∀ c : Dev Cert.KernelIdeal.nD, Cert.Spec.LabelsInRange (Cert.KernelIdeal.Hand.labelsOf m c) :=
    fun c => Cert.PreRange.labels_in_range _ _ (hpre c)
  refine ⟨fun c => Cert.ReferenceIdeal.ReadP.val_main_v54 (F := Ideal) (Cert.KernelIdeal.Hand.labelsOf m c) (Cert.KernelIdeal.Hand.featsOf m c),
    Cert.KernelIdeal.Hand.run_value m ρ hl, ?_⟩
  refine (θ_run Cert.ReferenceIdeal.defs _ _).mono (fun r h c => ⟨(h c).1.trans ?_, (h c).2⟩)
    (Cert.ReferenceIdeal.ValueP.run (F := Ideal) m' ρ')
  rw [Cert.ReferenceIdeal.ReadP.val_main_v54_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
